-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x8 : Shape := ⟨3, ![16, 256, 8]⟩
abbrev S16x512x8 : Shape := ⟨3, ![16, 512, 8]⟩
abbrev S3x50000x128 : Shape := ⟨3, ![3, 50000, 128]⟩
abbrev S_ : Shape := ⟨0, ![]⟩

class Facts : Prop where
  bcast_S_S3x50000x128 : S_.BroadcastsInDim S3x50000x128 (![] : Fin 0 → Fin S3x50000x128.rank)
  reducesTo_S3x50000x128_S_d0_1_2 : S3x50000x128.ReducesTo [0, 1, 2] S_
  h_S_ : 0 < S_.numel
  bcast_S_S16x256x8 : S_.BroadcastsInDim S16x256x8 (![] : Fin 0 → Fin S16x256x8.rank)
  reducesTo_S16x256x8_S_d0_1_2 : S16x256x8.ReducesTo [0, 1, 2] S_
  bcast_S_S16x512x8 : S_.BroadcastsInDim S16x512x8 (![] : Fin 0 → Fin S16x512x8.rank)
  reducesTo_S16x512x8_S_d0_1_2 : S16x512x8.ReducesTo [0, 1, 2] S_

variable [Facts]

def fn_part1 {F : FTy → Type} [FloatOps F] (main_arg1 : IVec S16x512x8 32) (main_v15 : IVec S_ 1) (main_c_5 : IVec S_ 32) : IVec S_ 1 :=
  let main_v16 : IVec S16x512x8 32 := broadcastInDim S16x512x8 ![] bcast_S_S16x512x8 main_c_5
  let main_v17 : IVec S16x512x8 1 := cmpi .sge main_arg1 main_v16
  let main_c_6 : IVec S_ 32 := constantI S_ 32 50000#32
  let main_v18 : IVec S16x512x8 32 := broadcastInDim S16x512x8 ![] bcast_S_S16x512x8 main_c_6
  let main_v19 : IVec S16x512x8 1 := cmpi .slt main_arg1 main_v18
  let main_v20 : IVec S16x512x8 1 := andi main_v17 main_v19
  let main_c_7 : IVec S_ 1 := constantI S_ 1 1#1
  let main_v21 : IVec S_ 1 := (fun x v => Host.reduce IntOp.andi x v reducesTo_S16x512x8_S_d0_1_2 h_S_) main_v20 main_c_7
  let main_v22 : IVec S_ 1 := andi main_v15 main_v21
  main_v22

def fn {F : FTy → Type} [FloatOps F] (main_arg0 : IVec S16x256x8 32) (main_arg1 : IVec S16x512x8 32) (main_arg2 : FVec F S3x50000x128 .f32) (main_arg3 : FVec F S3x50000x128 .f32) : IVec S_ 1 :=
  let main_v0 : FVec F S3x50000x128 .f32 := Host.absf main_arg2
  let main_cst : FVec F S_ .f32 := constant S_ .f32 0x7F800000#32
  let main_v1 : FVec F S3x50000x128 .f32 := broadcastInDim S3x50000x128 ![] bcast_S_S3x50000x128 main_cst
  let main_v2 : IVec S3x50000x128 1 := cmpf .olt main_v0 main_v1
  let main_c : IVec S_ 1 := constantI S_ 1 1#1
  let main_v3 : IVec S_ 1 := (fun x v => Host.reduce IntOp.andi x v reducesTo_S3x50000x128_S_d0_1_2 h_S_) main_v2 main_c
  let main_v4 : FVec F S3x50000x128 .f32 := Host.absf main_arg3
  let main_cst_0 : FVec F S_ .f32 := constant S_ .f32 0x7F800000#32
  let main_v5 : FVec F S3x50000x128 .f32 := broadcastInDim S3x50000x128 ![] bcast_S_S3x50000x128 main_cst_0
  let main_v6 : IVec S3x50000x128 1 := cmpf .olt main_v4 main_v5
  let main_c_1 : IVec S_ 1 := constantI S_ 1 1#1
  let main_v7 : IVec S_ 1 := (fun x v => Host.reduce IntOp.andi x v reducesTo_S3x50000x128_S_d0_1_2 h_S_) main_v6 main_c_1
  let main_v8 : IVec S_ 1 := andi main_v3 main_v7
  let main_c_2 : IVec S_ 32 := constantI S_ 32 0#32
  let main_v9 : IVec S16x256x8 32 := broadcastInDim S16x256x8 ![] bcast_S_S16x256x8 main_c_2
  let main_v10 : IVec S16x256x8 1 := cmpi .sge main_arg0 main_v9
  let main_c_3 : IVec S_ 32 := constantI S_ 32 50000#32
  let main_v11 : IVec S16x256x8 32 := broadcastInDim S16x256x8 ![] bcast_S_S16x256x8 main_c_3
  let main_v12 : IVec S16x256x8 1 := cmpi .slt main_arg0 main_v11
  let main_v13 : IVec S16x256x8 1 := andi main_v10 main_v12
  let main_c_4 : IVec S_ 1 := constantI S_ 1 1#1
  let main_v14 : IVec S_ 1 := (fun x v => Host.reduce IntOp.andi x v reducesTo_S16x256x8_S_d0_1_2 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16x256x8 : Shape := ⟨3, ![16, 256, 8]⟩
abbrev S16x512x8 : Shape := ⟨3, ![16, 512, 8]⟩
abbrev S3x50000x128 : Shape := ⟨3, ![3, 50000, 128]⟩
abbrev S3 : Shape := ⟨1, ![3]⟩
abbrev S_ : Shape := ⟨0, ![]⟩
abbrev S16x1x256x8 : Shape := ⟨4, ![16, 1, 256, 8]⟩
abbrev S1x3x1x1 : Shape := ⟨4, ![1, 3, 1, 1]⟩
abbrev S16x3x256x8 : Shape := ⟨4, ![16, 3, 256, 8]⟩
abbrev S16x1x512x8 : Shape := ⟨4, ![16, 1, 512, 8]⟩
abbrev S16x3x512x8 : Shape := ⟨4, ![16, 3, 512, 8]⟩
abbrev S150000x128 : Shape := ⟨2, ![150000, 128]⟩
abbrev S98304 : Shape := ⟨1, ![98304]⟩
abbrev S98304x1 : Shape := ⟨2, ![98304, 1]⟩
abbrev S1 : Shape := ⟨1, ![1]⟩
abbrev S1x1 : Shape := ⟨2, ![1, 1]⟩
abbrev S98304x128 : Shape := ⟨2, ![98304, 128]⟩
abbrev S16x3x256x8x128 : Shape := ⟨5, ![16, 3, 256, 8, 128]⟩
abbrev S16x3x256x128 : Shape := ⟨4, ![16, 3, 256, 128]⟩
abbrev S196608 : Shape := ⟨1, ![196608]⟩
abbrev S196608x1 : Shape := ⟨2, ![196608, 1]⟩
abbrev S196608x128 : Shape := ⟨2, ![196608, 128]⟩
abbrev S16x3x512x8x128 : Shape := ⟨5, ![16, 3, 512, 8, 128]⟩
abbrev S16x3x512x128 : Shape := ⟨4, ![16, 3, 512, 128]⟩
abbrev S16x256x128 : Shape := ⟨3, ![16, 256, 128]⟩
abbrev S1x3x256x128 : Shape := ⟨4, ![1, 3, 256, 128]⟩
abbrev S1x3x512x128 : Shape := ⟨4, ![1, 3, 512, 128]⟩
abbrev S1x256x128 : Shape := ⟨3, ![1, 256, 128]⟩
abbrev S256x128 : Shape := ⟨2, ![256, 128]⟩
abbrev S1x1x256x128 : Shape := ⟨4, ![1, 1, 256, 128]⟩
abbrev S1x1x512x128 : Shape := ⟨4, ![1, 1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S256x16x128 : Shape := ⟨3, ![256, 16, 128]⟩

abbrev nBuf : Space → Nat
  | .hbm => 78
  | .vmem => 6
  | .smem => 0
  | _ => 0

abbrev bufTy : (tb : Table) → Fin (tcTables nBuf tb) → BufTy
  | .hbm, ⟨0, _⟩ => ⟨S16x256x8, .i32⟩
  | .hbm, ⟨1, _⟩ => ⟨S16x512x8, .i32⟩
  | .hbm, ⟨2, _⟩ => ⟨S3x50000x128, .f32⟩
  | .hbm, ⟨3, _⟩ => ⟨S3x50000x128, .f32⟩
  | .hbm, ⟨4, _⟩ => ⟨S3, .i32⟩
  | .hbm, ⟨5, _⟩ => ⟨S_, .i32⟩
  | .hbm, ⟨6, _⟩ => ⟨S3, .i32⟩
  | .hbm, ⟨7, _⟩ => ⟨S3, .i32⟩
  | .hbm, ⟨8, _⟩ => ⟨S16x1x256x8, .i32⟩
  | .hbm, ⟨9, _⟩ => ⟨S1x3x1x1, .i32⟩
  | .hbm, ⟨10, _⟩ => ⟨S16x3x256x8, .i32⟩
  | .hbm, ⟨11, _⟩ => ⟨S16x3x256x8, .i32⟩
  | .hbm, ⟨12, _⟩ => ⟨S16x3x256x8, .i32⟩
  | .hbm, ⟨13, _⟩ => ⟨S16x1x512x8, .i32⟩
  | .hbm, ⟨14, _⟩ => ⟨S1x3x1x1, .i32⟩
  | .hbm, ⟨15, _⟩ => ⟨S16x3x512x8, .i32⟩
  | .hbm, ⟨16, _⟩ => ⟨S16x3x512x8, .i32⟩
  | .hbm, ⟨17, _⟩ => ⟨S16x3x512x8, .i32⟩
  | .hbm, ⟨18, _⟩ => ⟨S150000x128, .f32⟩
  | .hbm, ⟨19, _⟩ => ⟨S98304, .i32⟩
  | .hbm, ⟨20, _⟩ => ⟨S_, .i32⟩
  | .hbm, ⟨21, _⟩ => ⟨S98304, .i32⟩
  | .hbm, ⟨22, _⟩ => ⟨S98304, .i1⟩
  | .hbm, ⟨23, _⟩ => ⟨S_, .i32⟩
  | .hbm, ⟨24, _⟩ => ⟨S98304, .i32⟩
  | .hbm, ⟨25, _⟩ => ⟨S98304, .i32⟩
  | .hbm, ⟨26, _⟩ => ⟨S98304, .i32⟩
  | .hbm, ⟨27, _⟩ => ⟨S98304x1, .i32⟩
  | .hbm, ⟨28, _⟩ => ⟨S1, .i32⟩
  | .hbm, ⟨29, _⟩ => ⟨S_, .i32⟩
  | .hbm, ⟨30, _⟩ => ⟨S98304x1, .i32⟩
  | .hbm, ⟨31, _⟩ => ⟨S98304x1, .i1⟩
  | .hbm, ⟨32, _⟩ => ⟨S1x1, .i32⟩
  | .hbm, ⟨33, _⟩ => ⟨S98304x1, .i32⟩
  | .hbm, ⟨34, _⟩ => ⟨S98304x1, .i1⟩
  | .hbm, ⟨35, _⟩ => ⟨S98304x1, .i1⟩
  | .hbm, ⟨36, _⟩ => ⟨S_, .i1⟩
  | .hbm, ⟨37, _⟩ => ⟨S98304, .i1⟩
  | .hbm, ⟨38, _⟩ => ⟨S98304x128, .f32⟩
  | .hbm, ⟨39, _⟩ => ⟨S98304x128, .i1⟩
  | .hbm, ⟨40, _⟩ => ⟨S_, .f32⟩
  | .hbm, ⟨41, _⟩ => ⟨S98304x128, .f32⟩
  | .hbm, ⟨42, _⟩ => ⟨S98304x128, .f32⟩
  | .hbm, ⟨43, _⟩ => ⟨S16x3x256x8x128, .f32⟩
  | .hbm, ⟨44, _⟩ => ⟨S_, .f32⟩
  | .hbm, ⟨45, _⟩ => ⟨S16x3x256x128, .f32⟩
  | .hbm, ⟨46, _⟩ => ⟨S16x3x256x128, .bf16⟩
  | .hbm, ⟨47, _⟩ => ⟨S150000x128, .f32⟩
  | .hbm, ⟨48, _⟩ => ⟨S196608, .i32⟩
  | .hbm, ⟨49, _⟩ => ⟨S_, .i32⟩
  | .hbm, ⟨50, _⟩ => ⟨S196608, .i32⟩
  | .hbm, ⟨51, _⟩ => ⟨S196608, .i1⟩
  | .hbm, ⟨52, _⟩ => ⟨S_, .i32⟩
  | .hbm, ⟨53, _⟩ => ⟨S196608, .i32⟩
  | .hbm, ⟨54, _⟩ => ⟨S196608, .i32⟩
  | .hbm, ⟨55, _⟩ => ⟨S196608, .i32⟩
  | .hbm, ⟨56, _⟩ => ⟨S196608x1, .i32⟩
  | .hbm, ⟨57, _⟩ => ⟨S1, .i32⟩
  | .hbm, ⟨58, _⟩ => ⟨S_, .i32⟩
  | .hbm, ⟨59, _⟩ => ⟨S196608x1, .i32⟩
  | .hbm, ⟨60, _⟩ => ⟨S196608x1, .i1⟩
  | .hbm, ⟨61, _⟩ => ⟨S1x1, .i32⟩
  | .hbm, ⟨62, _⟩ => ⟨S196608x1, .i32⟩
  | .hbm, ⟨63, _⟩ => ⟨S196608x1, .i1⟩
  | .hbm, ⟨64, _⟩ => ⟨S196608x1, .i1⟩
  | .hbm, ⟨65, _⟩ => ⟨S_, .i1⟩
  | .hbm, ⟨66, _⟩ => ⟨S196608, .i1⟩
  | .hbm, ⟨67, _⟩ => ⟨S196608x128, .f32⟩
  | .hbm, ⟨68, _⟩ => ⟨S196608x128, .i1⟩
  | .hbm, ⟨69, _⟩ => ⟨S_, .f32⟩
  | .hbm, ⟨70, _⟩ => ⟨S196608x128, .f32⟩
  | .hbm, ⟨71, _⟩ => ⟨S196608x128, .f32⟩
  | .hbm, ⟨72, _⟩ => ⟨S16x3x512x8x128, .f32⟩
  | .hbm, ⟨73, _⟩ => ⟨S_, .f32⟩
  | .hbm, ⟨74, _⟩ => ⟨S16x3x512x128, .f32⟩
  | .hbm, ⟨75, _⟩ => ⟨S16x3x512x128, .bf16⟩
  | .hbm, ⟨76, _⟩ => ⟨S16x256x128, .f32⟩
  | .hbm, ⟨77, _⟩ => ⟨S256x16x128, .f32⟩
  | .local _ .vmem, ⟨0, _⟩ => ⟨S1x3x256x128, .bf16⟩
  | .local _ .vmem, ⟨1, _⟩ => ⟨S1x3x256x128, .bf16⟩
  | .local _ .vmem, ⟨2, _⟩ => ⟨S1x3x512x128, .bf16⟩
  | .local _ .vmem, ⟨3, _⟩ => ⟨S1x3x512x128, .bf16⟩
  | .local _ .vmem, ⟨4, _⟩ => ⟨S1x256x128, .f32⟩
  | .local _ .vmem, ⟨5, _⟩ => ⟨S1x256x128, .f32⟩
  | _, _ => ⟨S16x256x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v21 : Ref sig .tc := ⟨.hbm, 71, rfl⟩
abbrev main_v22 : Ref sig .tc := ⟨.hbm, 72, rfl⟩
abbrev main_cst_0 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S3 : S_.BroadcastsInDim S3 (![] : Fin 0 → Fin S3.rank)
  bcast_S16x256x8_S16x1x256x8_0_2_3 : S16x256x8.BroadcastsInDim S16x1x256x8 (![0, 2, 3] : Fin 3 → Fin S16x1x256x8.rank)
  bcast_S3_S1x3x1x1_1 : S3.BroadcastsInDim S1x3x1x1 (![1] : Fin 1 → Fin S1x3x1x1.rank)
  bcast_S16x1x256x8_S16x3x256x8_0_1_2_3 : S16x1x256x8.BroadcastsInDim S16x3x256x8 (![0, 1, 2, 3] : Fin 4 → Fin S16x3x256x8.rank)
  bcast_S1x3x1x1_S16x3x256x8_0_1_2_3 : S1x3x1x1.BroadcastsInDim S16x3x256x8 (![0, 1, 2, 3] : Fin 4 → Fin S16x3x256x8.rank)
  bcast_S16x512x8_S16x1x512x8_0_2_3 : S16x512x8.BroadcastsInDim S16x1x512x8 (![0, 2, 3] : Fin 3 → Fin S16x1x512x8.rank)
  bcast_S16x1x512x8_S16x3x512x8_0_1_2_3 : S16x1x512x8.BroadcastsInDim S16x3x512x8 (![0, 1, 2, 3] : Fin 4 → Fin S16x3x512x8.rank)
  bcast_S1x3x1x1_S16x3x512x8_0_1_2_3 : S1x3x1x1.BroadcastsInDim S16x3x512x8 (![0, 1, 2, 3] : Fin 4 → Fin S16x3x512x8.rank)
  shapeCasts_S3x50000x128_S150000x128 : S3x50000x128.ShapeCasts S150000x128
  shapeCasts_S16x3x256x8_S98304 : S16x3x256x8.ShapeCasts S98304
  bcast_S_S98304 : S_.BroadcastsInDim S98304 (![] : Fin 0 → Fin S98304.rank)
  bcast_S98304_S98304x1_0 : S98304.BroadcastsInDim S98304x1 (![0] : Fin 1 → Fin S98304x1.rank)
  bcast_S_S98304x1 : S_.BroadcastsInDim S98304x1 (![] : Fin 0 → Fin S98304x1.rank)
  bcast_S1_S1x1_1 : S1.BroadcastsInDim S1x1 (![1] : Fin 1 → Fin S1x1.rank)
  bcast_S1x1_S98304x1_0_1 : S1x1.BroadcastsInDim S98304x1 (![0, 1] : Fin 2 → Fin S98304x1.rank)
  reducesTo_S98304x1_S98304_d1 : S98304x1.ReducesTo [1] S98304
  h_S_ : 0 < S_.numel
  bcast_S98304_S98304x128_0 : S98304.BroadcastsInDim S98304x128 (![0] : Fin 1 → Fin S98304x128.rank)
  bcast_S_S98304x128 : S_.BroadcastsInDim S98304x128 (![] : Fin 0 → Fin S98304x128.rank)
  shapeCasts_S98304x128_S16x3x256x8x128 : S98304x128.ShapeCasts S16x3x256x8x128
  reducesTo_S16x3x256x8x128_S16x3x256x128_d3 : S16x3x256x8x128.ReducesTo [3] S16x3x256x128
  bitsLt_bf16_f32 : FTy.bits .bf16 < FTy.bits .f32
  shapeCasts_S16x3x512x8_S196608 : S16x3x512x8.ShapeCasts S196608
  bcast_S_S196608 : S_.BroadcastsInDim S196608 (![] : Fin 0 → Fin S196608.rank)
  bcast_S196608_S196608x1_0 : S196608.BroadcastsInDim S196608x1 (![0] : Fin 1 → Fin S196608x1.rank)
  bcast_S_S196608x1 : S_.BroadcastsInDim S196608x1 (![] : Fin 0 → Fin S196608x1.rank)
  bcast_S1x1_S196608x1_0_1 : S1x1.BroadcastsInDim S196608x1 (![0, 1] : Fin 2 → Fin S196608x1.rank)
  reducesTo_S196608x1_S196608_d1 : S196608x1.ReducesTo [1] S196608
  bcast_S196608_S196608x128_0 : S196608.BroadcastsInDim S196608x128 (![0] : Fin 1 → Fin S196608x128.rank)
  bcast_S_S196608x128 : S_.BroadcastsInDim S196608x128 (![] : Fin 0 → Fin S196608x128.rank)
  shapeCasts_S196608x128_S16x3x512x8x128 : S196608x128.ShapeCasts S16x3x512x8x128
  reducesTo_S16x3x512x8x128_S16x3x512x128_d3 : S16x3x512x8x128.ReducesTo [3] S16x3x512x128
  inb_S1x3x256x128_S1x1x256x128_0_0_0_0 : ∀ a, (![0, 0, 0, 0] : Fin 4 → Nat) a + S1x1x256x128.size a ≤ S1x3x256x128.size a
  h_S1x1x256x128 : 0 < S1x1x256x128.numel
  shapeCasts_S1x1x256x128_S256x128 : S1x1x256x128.ShapeCasts S256x128
  inb_S1x3x512x128_S1x1x512x128_0_0_0_0 : ∀ a, (![0, 0, 0, 0] : Fin 4 → Nat) a + S1x1x512x128.size a ≤ S1x3x512x128.size a
  h_S1x1x512x128 : 0 < S1x1x512x128.numel
  shapeCasts_S1x1x512x128_S512x128 : S1x1x512x128.ShapeCasts S512x128
  reduces_S256x512_S256 : S256x512.Reduces [1] S256
  shapeCasts_S256_S256x1 : S256.ShapeCasts S256x1
  broadcasts_S256x1_S256x512 : S256x1.Broadcasts S256x512
  inb_S1x3x256x128_S1x1x256x128_0_1_0_0 : ∀ a, (![0, 1, 0, 0] : Fin 4 → Nat) a + S1x1x256x128.size a ≤ S1x3x256x128.size a
  inb_S1x3x512x128_S1x1x512x128_0_1_0_0 : ∀ a, (![0, 1, 0, 0] : Fin 4 → Nat) a + S1x1x512x128.size a ≤ S1x3x512x128.size a
  inb_S1x3x256x128_S1x1x256x128_0_2_0_0 : ∀ a, (![0, 2, 0, 0] : Fin 4 → Nat) a + S1x1x256x128.size a ≤ S1x3x256x128.size a
  inb_S1x3x512x128_S1x1x512x128_0_2_0_0 : ∀ a, (![0, 2, 0, 0] : Fin 4 → Nat) a + S1x1x512x128.size a ≤ S1x3x512x128.size a
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  transposes_S16x256x128_S256x16x128_1_0_2 : S16x256x128.Transposes [1, 0, 2] S256x16x128
  gather_S150000x128_S98304x1_S98304x128_1_0_n_n_0_1_1128_wf : GatherDims.WF S150000x128 S98304x1 S98304x128 [1] [0] [] [0] [] 1 ![1, 128]
  gather_S150000x128_S196608x1_S196608x128_1_0_n_n_0_1_1128_wf : GatherDims.WF S150000x128 S196608x1 S196608x128 [1] [0] [] [0] [] 1 ![1, 128]
  dot_S256x128_S512x128_S256x512_1_1_0_0_n_n_wf : DotDims.WF S256x128 S512x128 S256x512 [1] [1] [0] [0] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x128.size a ≤ S16x3x256x128.size a
  hwx0_0 : ∀ i : grid0.Coords, EltTy.bits .bf16 = 32 ∨ (Rect.block (s := S16x3x256x128) S1x3x256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x128.size a ≤ S16x3x512x128.size a
  hwx0_1 : ∀ i : grid0.Coords, EltTy.bits .bf16 = 32 ∨ (Rect.block (s := S16x3x512x128) S1x3x512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S16x256x128.size a
  hwx0_2 : ∀ i : grid0.Coords, EltTy.bits .f32 = 32 ∨ (Rect.block (s := S16x256x128) S1x256x128.size (cc0_transform_2 i) (hinb0_2 i)).WholeWords (EltTy.packing .f32)

variable [Facts₀]

def gather_S150000x128_S98304x1_S98304x128_1_0_n_n_0_1_1128 : GatherDims S150000x128 S98304x1 S98304x128 where
  offsetDims := [1]
  collapsedSliceDims := [0]
  operandBatchingDims := []
  startIndicesBatchingDims := []
  startIndexMap := [0]
  indexVectorDim := 1
  sliceSizes := ![1, 128]
  wf := gather_S150000x128_S98304x1_S98304x128_1_0_n_n_0_1_1128_wf
def gather_S150000x128_S196608x1_S196608x128_1_0_n_n_0_1_1128 : GatherDims S150000x128 S196608x1 S196608x128 where
  offsetDims := [1]
  collapsedSliceDims := [0]
  operandBatchingDims := []
  startIndicesBatchingDims := []
  startIndexMap := [0]
  indexVectorDim := 1
  sliceSizes := ![1, 128]
  wf := gather_S150000x128_S196608x1_S196608x128_1_0_n_n_0_1_1128_wf
def dot_S256x128_S512x128_S256x512_1_1_0_0_n_n : DotDims S256x128 S512x128 S256x512 where
  lhsContracting := [1]
  rhsContracting := [1]
  lhsNonContracting := [0]
  rhsNonContracting := [0]
  lhsBatch := []
  rhsBatch := []
  wf := dot_S256x128_S512x128_S256x512_1_1_0_0_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v18) S1x3x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x3x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x8 : Shape := ⟨3, ![16, 256, 8]⟩
abbrev S16x512x8 : Shape := ⟨3, ![16, 512, 8]⟩
abbrev S3x50000x128 : Shape := ⟨3, ![3, 50000, 128]⟩
abbrev S_ : Shape := ⟨0, ![]⟩
abbrev S16x256x128 : Shape := ⟨3, ![16, 256, 128]⟩
abbrev S1x50000x128 : Shape := ⟨3, ![1, 50000, 128]⟩
abbrev S50000x128 : Shape := ⟨2, ![50000, 128]⟩
abbrev S16x256x8x1 : Shape := ⟨4, ![16, 256, 8, 1]⟩
abbrev S16x256x8x128 : Shape := ⟨4, ![16, 256, 8, 128]⟩
abbrev S16x512x8x1 : Shape := ⟨4, ![16, 512, 8, 1]⟩
abbrev S16x512x8x128 : Shape := ⟨4, ![16, 512, 8, 128]⟩
abbrev S16x512x128 : Shape := ⟨3, ![16, 512, 128]⟩
abbrev S16x256x512 : Shape := ⟨3, ![16, 256, 512]⟩
abbrev S16x256 : Shape := ⟨2, ![16, 256]⟩
abbrev S16x256x1 : Shape := ⟨3, ![16, 256, 1]⟩
abbrev S256x16x128 : Shape := ⟨3, ![256, 16, 128]⟩

abbrev nBuf : Space → Nat
  | .hbm => 136
  | .vmem => 0
  | .smem => 0
  | _ => 0

abbrev hbmTy0_0 (i : Nat) : BufTy := match i % 128 with
  | 0 => ⟨S16x256x8, .i32⟩
  | 1 => ⟨S16x512x8, .i32⟩
  | 2 => ⟨S3x50000x128, .f32⟩
  | 3 => ⟨S3x50000x128, .f32⟩
  | 4 => ⟨S_, .f32⟩
  | 5 => ⟨S16x256x128, .f32⟩
  | 6 => ⟨S1x50000x128, .f32⟩
  | 7 => ⟨S50000x128, .f32⟩
  | 8 => ⟨S_, .i32⟩
  | 9 => ⟨S16x256x8, .i32⟩
  | 10 => ⟨S16x256x8, .i1⟩
  | 11 => ⟨S_, .i32⟩
  | 12 => ⟨S16x256x8, .i32⟩
  | 13 => ⟨S16x256x8, .i32⟩
  | 14 => ⟨S16x256x8, .i32⟩
  | 15 => ⟨S16x256x8x1, .i32⟩
  | 16 => ⟨S16x256x8x128, .f32⟩
  | 17 => ⟨S_, .f32⟩
  | 18 => ⟨S16x256x128, .f32⟩
  | 19 => ⟨S1x50000x128, .f32⟩
  | 20 => ⟨S50000x128, .f32⟩
  | 21 => ⟨S_, .i32⟩
  | 22 => ⟨S16x512x8, .i32⟩
  | 23 => ⟨S16x512x8, .i1⟩
  | 24 => ⟨S_, .i32⟩
  | 25 => ⟨S16x512x8, .i32⟩
  | 26 => ⟨S16x512x8, .i32⟩
  | 27 => ⟨S16x512x8, .i32⟩
  | 28 => ⟨S16x512x8x1, .i32⟩
  | 29 => ⟨S16x512x8x128, .f32⟩
  | 30 => ⟨S_, .f32⟩
  | 31 => ⟨S16x512x128, .f32⟩
  | 32 => ⟨S16x256x512, .f32⟩
  | 33 => ⟨S_, .f32⟩
  | 34 => ⟨S16x256, .f32⟩
  | 35 => ⟨S_, .f32⟩
  | 36 => ⟨S16x256, .f32⟩
  | 37 => ⟨S16x256, .f32⟩
  | 38 => ⟨S16x256x1, .f32⟩
  | 39 => ⟨S16x256x512, .f32⟩
  | 40 => ⟨S16x256x512, .f32⟩
  | 41 => ⟨S16x256x512, .f32⟩
  | 42 => ⟨S_, .f32⟩
  | 43 => ⟨S16x256, .f32⟩
  | 44 => ⟨S16x256x1, .f32⟩
  | 45 => ⟨S16x256x512, .f32⟩
  | 46 => ⟨S16x256x512, .f32⟩
  | 47 => ⟨S16x256x128, .f32⟩
  | 48 => ⟨S16x256x128, .f32⟩
  | 49 => ⟨S1x50000x128, .f32⟩
  | 50 => ⟨S50000x128, .f32⟩
  | 51 => ⟨S_, .i32⟩
  | 52 => ⟨S16x256x8, .i32⟩
  | 53 => ⟨S16x256x8, .i1⟩
  | 54 => ⟨S_, .i32⟩
  | 55 => ⟨S16x256x8, .i32⟩
  | 56 => ⟨S16x256x8, .i32⟩
  | 57 => ⟨S16x256x8, .i32⟩
  | 58 => ⟨S16x256x8x1, .i32⟩
  | 59 => ⟨S16x256x8x128, .f32⟩
  | 60 => ⟨S_, .f32⟩
  | 61 => ⟨S16x256x128, .f32⟩
  | 62 => ⟨S1x50000x128, .f32⟩
  | 63 => ⟨S50000x128, .f32⟩
  | 64 => ⟨S_, .i32⟩
  | 65 => ⟨S16x512x8, .i32⟩
  | 66 => ⟨S16x512x8, .i1⟩
  | 67 => ⟨S_, .i32⟩
  | 68 => ⟨S16x512x8, .i32⟩
  | 69 => ⟨S16x512x8, .i32⟩
  | 70 => ⟨S16x512x8, .i32⟩
  | 71 => ⟨S16x512x8x1, .i32⟩
  | 72 => ⟨S16x512x8x128, .f32⟩
  | 73 => ⟨S_, .f32⟩
  | 74 => ⟨S16x512x128, .f32⟩
  | 75 => ⟨S16x256x512, .f32⟩
  | 76 => ⟨S_, .f32⟩
  | 77 => ⟨S16x256, .f32⟩
  | 78 => ⟨S_, .f32⟩
  | 79 => ⟨S16x256, .f32⟩
  | 80 => ⟨S16x256, .f32⟩
  | 81 => ⟨S16x256x1, .f32⟩
  | 82 => ⟨S16x256x512, .f32⟩
  | 83 => ⟨S16x256x512, .f32⟩
  | 84 => ⟨S16x256x512, .f32⟩
  | 85 => ⟨S_, .f32⟩
  | 86 => ⟨S16x256, .f32⟩
  | 87 => ⟨S16x256x1, .f32⟩
  | 88 => ⟨S16x256x512, .f32⟩
  | 89 => ⟨S16x256x512, .f32⟩
  | 90 => ⟨S16x256x128, .f32⟩
  | 91 => ⟨S16x256x128, .f32⟩
  | 92 => ⟨S1x50000x128, .f32⟩
  | 93 => ⟨S50000x128, .f32⟩
  | 94 => ⟨S_, .i32⟩
  | 95 => ⟨S16x256x8, .i32⟩
  | 96 => ⟨S16x256x8, .i1⟩
  | 97 => ⟨S_, .i32⟩
  | 98 => ⟨S16x256x8, .i32⟩
  | 99 => ⟨S16x256x8, .i32⟩
  | 100 => ⟨S16x256x8, .i32⟩
  | 101 => ⟨S16x256x8x1, .i32⟩
  | 102 => ⟨S16x256x8x128, .f32⟩
  | 103 => ⟨S_, .f32⟩
  | 104 => ⟨S16x256x128, .f32⟩
  | 105 => ⟨S1x50000x128, .f32⟩
  | 106 => ⟨S50000x128, .f32⟩
  | 107 => ⟨S_, .i32⟩
  | 108 => ⟨S16x512x8, .i32⟩
  | 109 => ⟨S16x512x8, .i1⟩
  | 110 => ⟨S_, .i32⟩
  | 111 => ⟨S16x512x8, .i32⟩
  | 112 => ⟨S16x512x8, .i32⟩
  | 113 => ⟨S16x512x8, .i32⟩
  | 114 => ⟨S16x512x8x1, .i32⟩
  | 115 => ⟨S16x512x8x128, .f32⟩
  | 116 => ⟨S_, .f32⟩
  | 117 => ⟨S16x512x128, .f32⟩
  | 118 => ⟨S16x256x512, .f32⟩
  | 119 => ⟨S_, .f32⟩
  | 120 => ⟨S16x256, .f32⟩
  | 121 => ⟨S_, .f32⟩
  | 122 => ⟨S16x256, .f32⟩
  | 123 => ⟨S16x256, .f32⟩
  | 124 => ⟨S16x256x1, .f32⟩
  | 125 => ⟨S16x256x512, .f32⟩
  | 126 => ⟨S16x256x512, .f32⟩
  | 127 => ⟨S16x256x512, .f32⟩
  | _ => ⟨S16x256x8, .i32⟩

abbrev hbmTy0_1 (i : Nat) : BufTy := match i % 128 with
  | 0 => ⟨S_, .f32⟩
  | 1 => ⟨S16x256, .f32⟩
  | 2 => ⟨S16x256x1, .f32⟩
  | 3 => ⟨S16x256x512, .f32⟩
  | 4 => ⟨S16x256x512, .f32⟩
  | 5 => ⟨S16x256x128, .f32⟩
  | 6 => ⟨S16x256x128, .f32⟩
  | 7 => ⟨S256x16x128, .f32⟩
  | _ => ⟨S16x256x8, .i32⟩

abbrev hbmTy (i : Nat) : BufTy := match i / 128 with
  | 0 => hbmTy0_0 i
  | 1 => hbmTy0_1 i
  | _ => ⟨S16x256x8, .i32⟩

abbrev bufTy : (tb : Table) → Fin (tcTables nBuf tb) → BufTy
  | .hbm, ⟨i, _⟩ => hbmTy i
  | _, _ => ⟨S16x256x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_11 : Ref sig .tc := ⟨.hbm, 64, rfl⟩
abbrev main_v47 : Ref sig .tc := ⟨.hbm, 65, rfl⟩
abbrev main_v48 : Ref sig .tc := ⟨.hbm, 66, rfl⟩
abbrev main_c_12 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_17 : Ref sig .tc := ⟨.hbm, 94, rfl⟩
abbrev main_v71 : Ref sig .tc := ⟨.hbm, 95, rfl⟩
abbrev main_v72 : Ref sig .tc := ⟨.hbm, 96, rfl⟩
abbrev main_c_18 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_19 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_20 : Ref sig .tc := ⟨.hbm, 107, rfl⟩
abbrev main_v81 : Ref sig .tc := ⟨.hbm, 108, rfl⟩
abbrev main_v82 : Ref sig .tc := ⟨.hbm, 109, rfl⟩
abbrev main_c_21 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_22 : Ref sig .tc := ⟨.hbm, 116, rfl⟩
abbrev main_v88 : Ref sig .tc := ⟨.hbm, 117, rfl⟩
abbrev main_v89 : Ref sig .tc := ⟨.hbm, 118, rfl⟩
abbrev main_cst_23 : Ref sig .tc := ⟨.hbm, 119, rfl⟩
abbrev main_v90 : Ref sig .tc := ⟨.hbm, 120, rfl⟩
abbrev main_cst_24 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_25 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩

abbrev nD : Nat := 1
abbrev τ : Topo := Topo.v7x

variable {F : FTy → Type} [FloatOps F]

class Facts₀ : Prop where
  bcast_S_S16x256x128 : S_.BroadcastsInDim S16x256x128 (![] : Fin 0 → Fin S16x256x128.rank)
  slices_S3x50000x128_S1x50000x128_0_0_0 : S3x50000x128.Slices ![0, 0, 0] S1x50000x128
  shapeCasts_S1x50000x128_S50000x128 : S1x50000x128.ShapeCasts S50000x128
  bcast_S_S16x256x8 : S_.BroadcastsInDim S16x256x8 (![] : Fin 0 → Fin S16x256x8.rank)
  bcast_S16x256x8_S16x256x8x1_0_1_2 : S16x256x8.BroadcastsInDim S16x256x8x1 (![0, 1, 2] : Fin 3 → Fin S16x256x8x1.rank)
  reducesTo_S16x256x8x128_S16x256x128_d2 : S16x256x8x128.ReducesTo [2] S16x256x128
  h_S_ : 0 < S_.numel
  bcast_S_S16x512x8 : S_.BroadcastsInDim S16x512x8 (![] : Fin 0 → Fin S16x512x8.rank)
  bcast_S16x512x8_S16x512x8x1_0_1_2 : S16x512x8.BroadcastsInDim S16x512x8x1 (![0, 1, 2] : Fin 3 → Fin S16x512x8x1.rank)
  reducesTo_S16x512x8x128_S16x512x128_d2 : S16x512x8x128.ReducesTo [2] S16x512x128
  reducesTo_S16x256x512_S16x256_d2 : S16x256x512.ReducesTo [2] S16x256
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x512_0_1_2 : S16x256x1.BroadcastsInDim S16x256x512 (![0, 1, 2] : Fin 3 → Fin S16x256x512.rank)
  slices_S3x50000x128_S1x50000x128_1_0_0 : S3x50000x128.Slices ![1, 0, 0] S1x50000x128
  slices_S3x50000x128_S1x50000x128_2_0_0 : S3x50000x128.Slices ![2, 0, 0] S1x50000x128
  transposes_S16x256x128_S256x16x128_1_0_2 : S16x256x128.Transposes [1, 0, 2] S256x16x128
  gather_S50000x128_S16x256x8x1_S16x256x8x128_3_0_n_n_0_3_1128_wf : GatherDims.WF S50000x128 S16x256x8x1 S16x256x8x128 [3] [0] [] [0] [] 3 ![1, 128]
  gather_S50000x128_S16x512x8x1_S16x512x8x128_3_0_n_n_0_3_1128_wf : GatherDims.WF S50000x128 S16x512x8x1 S16x512x8x128 [3] [0] [] [0] [] 3 ![1, 128]
  dot_S16x256x128_S16x512x128_S16x256x512_2_2_1_1_0_0_wf : DotDims.WF S16x256x128 S16x512x128 S16x256x512 [2] [2] [1] [1] [0] [0]
  dot_S16x256x512_S16x512x128_S16x256x128_2_1_1_2_0_0_wf : DotDims.WF S16x256x512 S16x512x128 S16x256x128 [2] [1] [1] [2] [0] [0]

variable [Facts₀]

def gather_S50000x128_S16x256x8x1_S16x256x8x128_3_0_n_n_0_3_1128 : GatherDims S50000x128 S16x256x8x1 S16x256x8x128 where
  offsetDims := [3]
  collapsedSliceDims := [0]
  operandBatchingDims := []
  startIndicesBatchingDims := []
  startIndexMap := [0]
  indexVectorDim := 3
  sliceSizes := ![1, 128]
  wf := gather_S50000x128_S16x256x8x1_S16x256x8x128_3_0_n_n_0_3_1128_wf
def gather_S50000x128_S16x512x8x1_S16x512x8x128_3_0_n_n_0_3_1128 : GatherDims S50000x128 S16x512x8x1 S16x512x8x128 where
  offsetDims := [3]
  collapsedSliceDims := [0]
  operandBatchingDims := []
  startIndicesBatchingDims := []
  startIndexMap := [0]
  indexVectorDim := 3
  sliceSizes := ![1, 128]
  wf := gather_S50000x128_S16x512x8x1_S16x512x8x128_3_0_n_n_0_3_1128_wf
def dot_S16x256x128_S16x512x128_S16x256x512_2_2_1_1_0_0 : DotDims S16x256x128 S16x512x128 S16x256x512 where
  lhsContracting := [2]
  rhsContracting := [2]
  lhsNonContracting := [1]
  rhsNonContracting := [1]
  lhsBatch := [0]
  rhsBatch := [0]
  wf := dot_S16x256x128_S16x512x128_S16x256x512_2_2_1_1_0_0_wf
def dot_S16x256x512_S16x512x128_S16x256x128_2_1_1_2_0_0 : DotDims S16x256x512 S16x512x128 S16x256x128 where
  lhsContracting := [2]
  rhsContracting := [1]
  lhsNonContracting := [1]
  rhsNonContracting := [2]
  lhsBatch := [0]
  rhsBatch := [0]
  wf := dot_S16x256x512_S16x512x128_S16x256x128_2_1_1_2_0_0_wf

class Facts : Prop extends Facts₀ where

variable [Facts]
-- ==== Proof.Attention.lean ====
/-
  The mathematics both programs compute, over plain coordinates and the extended reals.

  For one batch item and one hop, with query rows `q : Fin 256 → Fin 128 → EReal` and key rows
  `kv : Fin 512 → Fin 128 → EReal`:
    scores q kv l k  = ∑ d, q l d · kv k d                        (the logits)
    rowMax a         = the maximum of a row of logits, folded from −∞
    weight a k       = exp (a k − rowMax a) / ∑ k', exp (a k' − rowMax a)   (the softmax of the row)
    readout q kv l d = ∑ k, weight (scores q kv l) k · kv k d      (the attended value)
  The rows themselves are embedding bags: `bag T ids d = ∑ m, T (row (ids m)) d`, the sum over the
  eight span tokens of the table's rows they name (`row`: a token word read as a row number).
-/
import Idealize.ShloMosaic.PureOps.Ideal
import Idealize.ShloMosaic.Lib.ValueIdx

noncomputable section

namespace Cert.Attention

open Idealize.ShloMosaic

/-- The logit of query row `l` against key row `k`: the inner product over the 128 features. -/
def scores (q : Fin 256 → Fin 128 → EReal) (kv : Fin 512 → Fin 128 → EReal) (l : Fin 256) (k : Fin 512) : EReal :=
  ∑ d : Fin 128, q l d * kv k d

/-- The maximum of a row of 512 logits, folded from −∞ (the pattern `0xFF800000`). -/
def rowMax (a : Fin 512 → EReal) : EReal :=
  (Finset.univ : Finset (Fin 512)).fold max (Ideal.ofBits .f32 0xFF800000#32) a

/-- The shifted exponential of one logit of a row. -/
def expShift (a : Fin 512 → EReal) (k : Fin 512) : EReal := Ideal.exp (a k - rowMax a)

/-- The softmax weight of logit `k` of a row. -/
def weight (a : Fin 512 → EReal) (k : Fin 512) : EReal :=
  Ideal.div (expShift a k) (∑ k' : Fin 512, expShift a k')

/-- One hop's attended value at query row `l`, feature `d`. -/
def readout (q : Fin 256 → Fin 128 → EReal) (kv : Fin 512 → Fin 128 → EReal) (l : Fin 256) (d : Fin 128) : EReal :=
  ∑ k : Fin 512, weight (scores q kv l) k * kv k d

/-- A token word read as a row of a 50000-row table (rows past the end read the last row; the
    precondition keeps every token below 50000, where this is the token itself). -/
def row (v : BitVec 32) : Fin 50000 := ⟨min v.toNat 49999, by omega⟩

theorem row_val_of_lt {v : BitVec 32} (h : v.toNat < 50000) : (row v).val = v.toNat := by
  show min v.toNat 49999 = v.toNat; omega

/-- The embedding bag: the sum over the eight span tokens of the table rows they name. -/
def bag (T : Fin 50000 → Fin 128 → EReal) (ids : Fin 8 → BitVec 32) (d : Fin 128) : EReal :=
  ∑ m : Fin 8, T (row (ids m)) d

/-- The three hops' readouts added in the kernel's order, from zero. -/
def total (r0 r1 r2 : EReal) : EReal := ((0 + r0) + r1) + r2

/-- The reference adds each hop's readout in front of the running sum, from zero: the same number,
    addition of extended reals being commutative and associative. -/
theorem total_eq (r0 r1 r2 : EReal) : r2 + (r1 + (r0 + 0)) = total r0 r1 r2 := by
  unfold total; rw [add_zero, zero_add, add_comm r2, add_comm r1]

/-- One hop's attended value for batch item `b`: queries and keys are the embedding bags of the
    conversation's and the knowledge base's span tokens in hop `h`'s tables. -/
def hopOut (cs : Fin 16 → Fin 256 → Fin 8 → BitVec 32) (kb : Fin 16 → Fin 512 → Fin 8 → BitVec 32)
    (C K : Fin 3 → Fin 50000 → Fin 128 → EReal) (h : Fin 3) (b : Fin 16) (l : Fin 256) (d : Fin 128) : EReal :=
  readout (fun l d => bag (C h) (cs b l) d) (fun k d => bag (K h) (kb b k) d) l d

/-- The result's entry for batch item `b`, query row `l`, feature `d`: the three hops' readouts added up. -/
def out (cs : Fin 16 → Fin 256 → Fin 8 → BitVec 32) (kb : Fin 16 → Fin 512 → Fin 8 → BitVec 32)
    (C K : Fin 3 → Fin 50000 → Fin 128 → EReal) (b : Fin 16) (l : Fin 256) (d : Fin 128) : EReal :=
  total (hopOut cs kb C K 0 b l d) (hopOut cs kb C K 1 b l d) (hopOut cs kb C K 2 b l d)

open ValueIdx in
/-- The whole result array [256, 16, 128] (query row, batch item, feature) as one function of the four
    argument arrays: what both programs end with. -/
def G (a0 : IVec ⟨3, ![16, 256, 8]⟩ 32) (a1 : IVec ⟨3, ![16, 512, 8]⟩ 32)
    (a2 a3 : FVec Ideal ⟨3, ![3, 50000, 128]⟩ .f32) : FVec Ideal ⟨3, ![256, 16, 128]⟩ .f32 :=
  fun i => out (fun b l m => a0 (ix3 b l m)) (fun b k m => a1 (ix3 b k m)) (fun h r d => a2 (ix3 h r d))
    (fun h r d => a3 (ix3 h r d)) (i 1) (i 0) (i 2)

end Cert.Attention

end
-- ==== Proof.Tokens.lean ====
/-
  What the precondition says of the token arrays: every conversation token and every knowledge-base
  token is a word in [0, 50000), read signed; so its unsigned reading is below 50000 too.
-/
import proofs.«426875_j21844203668322_3_alg».proof.Pre_finite_inputs
import proofs.«426875_j21844203668322_3_alg».proof.Proof.Gen.Pre_finite_inputs
import Idealize.ShloMosaic.Lib.ValueIdx
import Idealize.ShloMosaic.Lib.Pipeline.Value
import Idealize.ShloMosaic.Lib.StableHlo.Predicate
import Idealize.ShloMosaic.Lib.ReduceAll

noncomputable section

namespace Cert.Tokens

open Idealize.ShloMosaic Idealize.ShloMosaic.ValueIdx Cert.Pre_finite_inputs Cert.Pre_finite_inputs.Gen

variable {F : FTy → Type} [FloatOps F]

/-- The scalar shape has one index. -/
private instance subsingleton_scalar_idx : Subsingleton S_.Idx := ⟨fun a b => funext fun d => d.elim0⟩

/-- A word that tests signed `≥ 0` and signed `< 50000` is below 50000 read unsigned: being nonnegative
    read signed, its top bit is clear, so both readings are the same number. -/
private theorem word_lt (v : BitVec 32) (h0 : IntOp.cmpi .sge v 0#32 = 1#1)
    (h1 : IntOp.cmpi .slt v 50000#32 = 1#1) : v.toNat < 50000 := by
  rw [IntOp.cmpi_sge, show (0#32 : BitVec 32).toInt = 0 from by decide] at h0
  rw [IntOp.cmpi_slt, show (50000#32 : BitVec 32).toInt = 50000 from by decide] at h1
  have hc := BitVec.toInt_eq_toNat_cond v
  have hlt := v.isLt
  split at hc <;> omega

/-- One `all((x ≥ 0) ∧ (x < 50000))` conjunct read back: the reduction by `and` over every axis being 1, each
    element passes both comparisons against the broadcast constants, which read the constant at every index. -/
private theorem all_lt {s : Shape} {axes : List (Fin s.rank)} (x : IVec s 32)
    (hb : S_.BroadcastsInDim s (![] : Fin 0 → Fin s.rank)) (hr : s.ReducesTo axes S_) (hp : 0 < S_.numel) (j : S_.Idx)
    (e : Host.reduce IntOp.andi
        (andi (cmpi .sge x (broadcastInDim s ![] hb (constantI S_ 32 0#32)))
          (cmpi .slt x (broadcastInDim s ![] hb (constantI S_ 32 50000#32))))
        (constantI S_ 1 1#1) hr hp j = 1#1) (i : s.Idx) : (x i).toNat < 50000 := by
  have hi := Host.reduce_andi_all _ _ hr hp j e i
  obtain ⟨h0, h1⟩ := IntOp.andi_eq_one.1 hi
  exact word_lt (x i) h0 h1

/-- Under the precondition every token of both arrays is below 50000. -/
theorem in_range (a0 : IVec S16x256x8 32) (a1 : IVec S16x512x8 32) (a2 a3 : FVec F S3x50000x128 .f32)
    (h : Cert.Pre_finite_inputs.fn (F := F) a0 a1 a2 a3 = fun _ => 1#1) :
    (∀ i, (a0 i).toNat < 50000) ∧ (∀ i, (a1 i).toNat < 50000) := by
  have h0 := congrFun h ValueIdx.ix0
  -- the result is ((floats ∧ all a0) ∧ all a1) at the one scalar index
  obtain ⟨h15, h21⟩ := IntOp.andi_eq_one.1 h0
  obtain ⟨_, h14⟩ := IntOp.andi_eq_one.1 h15
  exact ⟨all_lt a0 _ _ _ _ h14, all_lt a1 _ _ _ _ h21⟩

end Cert.Tokens

end
-- ==== Proof.KernelBag.lean ====
/-
  The kernel's embedding bags, made by the host lines before the pallas_call: the three hops' tables
  are laid end to end as one [150000, 128] table, each token is offset by 50000 times its hop, the
  offset tokens are flattened, a negative one is moved up by 150000, a row outside [0, 149999] reads
  as a fill value, the rows are gathered and laid back as [16, 3, L, 8, 128], and the span axis is
  summed from zero (the change of float format at the end is the identity over the extended reals).
  For tokens in [0, 50000) the offset token of hop `h` names row `h·50000 + token` of the long table,
  which is row `token` of hop `h`'s own table: the bag is `Attention.bag` of that table.
-/
import proofs.«426875_j21844203668322_3_alg».proof.KernelIdeal
import proofs.«426875_j21844203668322_3_alg».proof.Proof.Gen.KernelIdeal
import proofs.«426875_j21844203668322_3_alg».proof.Proof.Attention
import Idealize.ShloMosaic.PureOps.Ideal.Laws
import Idealize.ShloMosaic.Lib.ValueIdx
import Idealize.ShloMosaic.Lib.Pipeline.Value
import Idealize.ShloMosaic.Lib.StableHlo.Predicate
import Idealize.ShloMosaic.Lib.ReduceAll

noncomputable section

namespace Cert.KernelIdeal.Bag

open Idealize.ShloMosaic Idealize.ShloMosaic.ValueIdx Cert.KernelIdeal Cert.KernelIdeal.Gen Cert.Attention

variable {F : FTy → Type} [FloatOps F]

/-- The conversation side: tokens [16, 256, 8] against all three hops' tables at once, as [16, 3, 256, 128] rows. -/
def bagQ (T : FVec F S3x50000x128 .f32) (ids : IVec S16x256x8 32) : FVec F S16x3x256x128 .bf16 :=
  have offs : IVec S3 32 := muli (iotaInDim S3 32 0) (broadcastInDim S3 ![] bcast_S_S3 (constantI S_ 32 50000#32))
  have idx4 : IVec S16x3x256x8 32 := addi
    (broadcastInDim S16x3x256x8 ![0, 1, 2, 3] bcast_S16x1x256x8_S16x3x256x8_0_1_2_3
      (broadcastInDim S16x1x256x8 ![0, 2, 3] bcast_S16x256x8_S16x1x256x8_0_2_3 ids))
    (broadcastInDim S16x3x256x8 ![0, 1, 2, 3] bcast_S1x3x1x1_S16x3x256x8_0_1_2_3
      (broadcastInDim S1x3x1x1 ![1] bcast_S3_S1x3x1x1_1 offs))
  have tab : FVec F S150000x128 .f32 := shapeCast S150000x128 T shapeCasts_S3x50000x128_S150000x128
  have flat : IVec S98304 32 := shapeCast S98304 idx4 shapeCasts_S16x3x256x8_S98304
  have wrapped : IVec S98304 32 := select (cmpi .slt flat (broadcastInDim S98304 ![] bcast_S_S98304 (constantI S_ 32 0#32)))
    (addi flat (broadcastInDim S98304 ![] bcast_S_S98304 (constantI S_ 32 150000#32))) flat
  have col : IVec S98304x1 32 := broadcastInDim S98304x1 ![0] bcast_S98304_S98304x1_0 wrapped
  have inb : IVec S98304 1 := Host.reduce IntOp.andi
    (andi (cmpi .sge col (broadcastInDim S98304x1 ![] bcast_S_S98304x1 (constantI S_ 32 0#32)))
      (cmpi .sle col (broadcastInDim S98304x1 ![0, 1] bcast_S1x1_S98304x1_0_1 (broadcastInDim S1x1 ![1] bcast_S1_S1x1_1 (constantI S1 32 149999#32)))))
    (constantI S_ 1 1#1) reducesTo_S98304x1_S98304_d1 h_S_
  have rows : FVec F S98304x128 .f32 := Host.gather gather_S150000x128_S98304x1_S98304x128_1_0_n_n_0_1_1128 tab col
  have taken : FVec F S98304x128 .f32 := select (broadcastInDim S98304x128 ![0] bcast_S98304_S98304x128_0 inb) rows
    (broadcastInDim S98304x128 ![] bcast_S_S98304x128 (constant S_ .f32 0x7FC00000#32))
  have g5 : FVec F S16x3x256x8x128 .f32 := shapeCast S16x3x256x8x128 taken shapeCasts_S98304x128_S16x3x256x8x128
  truncf .bf16 (Host.reduceAdd g5 (constant S_ .f32 0x00000000#32) reducesTo_S16x3x256x8x128_S16x3x256x128_d3 h_S_) bitsLt_bf16_f32

/-- The knowledge-base side: tokens [16, 512, 8] against all three hops' tables at once, as [16, 3, 512, 128] rows. -/
def bagK (T : FVec F S3x50000x128 .f32) (ids : IVec S16x512x8 32) : FVec F S16x3x512x128 .bf16 :=
  have offs : IVec S3 32 := muli (iotaInDim S3 32 0) (broadcastInDim S3 ![] bcast_S_S3 (constantI S_ 32 50000#32))
  have idx4 : IVec S16x3x512x8 32 := addi
    (broadcastInDim S16x3x512x8 ![0, 1, 2, 3] bcast_S16x1x512x8_S16x3x512x8_0_1_2_3
      (broadcastInDim S16x1x512x8 ![0, 2, 3] bcast_S16x512x8_S16x1x512x8_0_2_3 ids))
    (broadcastInDim S16x3x512x8 ![0, 1, 2, 3] bcast_S1x3x1x1_S16x3x512x8_0_1_2_3
      (broadcastInDim S1x3x1x1 ![1] bcast_S3_S1x3x1x1_1 offs))
  have tab : FVec F S150000x128 .f32 := shapeCast S150000x128 T shapeCasts_S3x50000x128_S150000x128
  have flat : IVec S196608 32 := shapeCast S196608 idx4 shapeCasts_S16x3x512x8_S196608
  have wrapped : IVec S196608 32 := select (cmpi .slt flat (broadcastInDim S196608 ![] bcast_S_S196608 (constantI S_ 32 0#32)))
    (addi flat (broadcastInDim S196608 ![] bcast_S_S196608 (constantI S_ 32 150000#32))) flat
  have col : IVec S196608x1 32 := broadcastInDim S196608x1 ![0] bcast_S196608_S196608x1_0 wrapped
  have inb : IVec S196608 1 := Host.reduce IntOp.andi
    (andi (cmpi .sge col (broadcastInDim S196608x1 ![] bcast_S_S196608x1 (constantI S_ 32 0#32)))
      (cmpi .sle col (broadcastInDim S196608x1 ![0, 1] bcast_S1x1_S196608x1_0_1 (broadcastInDim S1x1 ![1] bcast_S1_S1x1_1 (constantI S1 32 149999#32)))))
    (constantI S_ 1 1#1) reducesTo_S196608x1_S196608_d1 h_S_
  have rows : FVec F S196608x128 .f32 := Host.gather gather_S150000x128_S196608x1_S196608x128_1_0_n_n_0_1_1128 tab col
  have taken : FVec F S196608x128 .f32 := select (broadcastInDim S196608x128 ![0] bcast_S196608_S196608x128_0 inb) rows
    (broadcastInDim S196608x128 ![] bcast_S_S196608x128 (constant S_ .f32 0x7FC00000#32))
  have g5 : FVec F S16x3x512x8x128 .f32 := shapeCast S16x3x512x8x128 taken shapeCasts_S196608x128_S16x3x512x8x128
  truncf .bf16 (Host.reduceAdd g5 (constant S_ .f32 0x00000000#32) reducesTo_S16x3x512x8x128_S16x3x512x128_d3 h_S_) bitsLt_bf16_f32

/-! ## What both sides share: the hop offsets and the long table -/

/-- The offset of hop `h`: the word of `50000 · h`. -/
private theorem offs_toNat (h : Fin 3) :
    (muli (iotaInDim S3 32 0) (broadcastInDim S3 ![] bcast_S_S3 (constantI S_ 32 50000#32)) (ix1 h)).toNat = 50000 * h.val := by
  show (IntOp.muli (BitVec.ofNat 32 h.val) (broadcastInDim S3 ![] bcast_S_S3 (constantI S_ 32 50000#32) (ix1 h))).toNat = _
  rw [broadcastInDim_apply _ bcast_S_S3 (constantI S_ 32 50000#32) (ix1 h) ix0 (fun a => a.elim0)]
  show (BitVec.ofNat 32 h.val * 50000#32).toNat = _
  rw [BitVec.toNat_mul, BitVec.toNat_ofNat]
  show h.val % 2 ^ 32 * 50000 % 2 ^ 32 = _
  have := h.isLt
  omega

/-- The three tables laid end to end: row `50000 · h + r` of the long table is row `r` of hop `h`'s table. -/
private theorem tab_apply {α : Type} (T : S3x50000x128.Idx → α) (h : Fin 3) (r : Fin 50000) (d : Fin 128)
    (hlt : 50000 * h.val + r.val < 150000) :
    shapeCast S150000x128 T shapeCasts_S3x50000x128_S150000x128 (ix2 ⟨50000 * h.val + r.val, hlt⟩ d) = T (ix3 h r d) := by
  refine shapeCast_apply T shapeCasts_S3x50000x128_S150000x128 _ (ix3 h r d) ?_
  rewrite [Shape.rowMajor_val_three, Shape.rowMajor_val_two]
  show (h.val * 50000 + r.val) * 128 + d.val = (50000 * h.val + r.val) * 128 + d.val
  omega

/-- A word below 2³¹ is not negative, so the move up by the long table's height leaves it as it is. -/
private theorem wrap_eq (v : BitVec 32) (c : BitVec 32) (hv : v.toNat < 2 ^ 31) :
    Scalar.select (IntOp.cmpi .slt v 0#32) (IntOp.addi v c) v = v := by
  have hz : IntOp.cmpi .slt v 0#32 = 0#1 := by
    refine eq_zero_of_ne_one fun h1 => ?_
    exact Nat.not_lt_zero _ ((StableHlo.Predicate.slt_iff_toNat (a := v) (b := 0#32) hv (by decide)).mp h1)
  rw [hz, select_zero]

/-- A word in [0, 149999] passes both range tests. -/
private theorem inRange_eq (v : BitVec 32) (hv : v.toNat ≤ 149999) :
    IntOp.andi (IntOp.cmpi .sge v 0#32) (IntOp.cmpi .sle v 149999#32) = 1#1 := by
  have h1 : IntOp.cmpi .sge v 0#32 = 1#1 :=
    (StableHlo.Predicate.sge_iff_toNat (a := v) (b := 0#32) (by omega) (by decide)).mpr (Nat.zero_le _)
  have h2 : IntOp.cmpi .sle v 149999#32 = 1#1 :=
    (StableHlo.Predicate.sle_iff_toNat (a := v) (b := 149999#32) (by omega) (by decide)).mpr hv
  rw [h1, h2]
  decide

/-- A fold by `and` over a one-entry axis is the one entry and the start. -/
private theorem fold_andi_fin1 (b : BitVec 1) (f : Fin 1 → BitVec 1) :
    (Finset.univ : Finset (Fin 1)).fold IntOp.andi b f = IntOp.andi (f 0) b := by
  rw [Finset.univ_unique, Finset.fold_singleton]
  rfl

/-! ## The conversation side -/

/-- The offset token at (b, h, l, m): the token at (b, l, m) plus hop `h`'s offset. -/
private theorem idx4Q_apply (ids : IVec S16x256x8 32) (offs : IVec S3 32) (b : Fin 16) (h : Fin 3) (l : Fin 256) (m : Fin 8) :
    addi
      (broadcastInDim S16x3x256x8 ![0, 1, 2, 3] bcast_S16x1x256x8_S16x3x256x8_0_1_2_3
        (broadcastInDim S16x1x256x8 ![0, 2, 3] bcast_S16x256x8_S16x1x256x8_0_2_3 ids))
      (broadcastInDim S16x3x256x8 ![0, 1, 2, 3] bcast_S1x3x1x1_S16x3x256x8_0_1_2_3
        (broadcastInDim S1x3x1x1 ![1] bcast_S3_S1x3x1x1_1 offs)) (ix4 b h l m)
      = IntOp.addi (ids (ix3 b l m)) (offs (ix1 h)) := by
  show IntOp.addi
    (broadcastInDim S16x3x256x8 ![0, 1, 2, 3] bcast_S16x1x256x8_S16x3x256x8_0_1_2_3
      (broadcastInDim S16x1x256x8 ![0, 2, 3] bcast_S16x256x8_S16x1x256x8_0_2_3 ids) (ix4 b h l m))
    (broadcastInDim S16x3x256x8 ![0, 1, 2, 3] bcast_S1x3x1x1_S16x3x256x8_0_1_2_3
      (broadcastInDim S1x3x1x1 ![1] bcast_S3_S1x3x1x1_1 offs) (ix4 b h l m)) = _
  rw [broadcastInDim_apply _ bcast_S16x1x256x8_S16x3x256x8_0_1_2_3 _ (ix4 b h l m) (ix4 b (0 : Fin 1) l m) (fun a => match a with
      | ⟨0, _⟩ => by show b.val = if (16 : Nat) = 1 then 0 else b.val; rw [if_neg (by decide)]
      | ⟨1, _⟩ => by show 0 = if (1 : Nat) = 1 then 0 else h.val; rw [if_pos rfl]
      | ⟨2, _⟩ => by show l.val = if (256 : Nat) = 1 then 0 else l.val; rw [if_neg (by decide)]
      | ⟨3, _⟩ => by show m.val = if (8 : Nat) = 1 then 0 else m.val; rw [if_neg (by decide)]),
    broadcastInDim_apply _ bcast_S16x256x8_S16x1x256x8_0_2_3 ids (ix4 b (0 : Fin 1) l m) (ix3 b l m) (fun a => match a with
      | ⟨0, _⟩ => by show b.val = if (16 : Nat) = 1 then 0 else b.val; rw [if_neg (by decide)]
      | ⟨1, _⟩ => by show l.val = if (256 : Nat) = 1 then 0 else l.val; rw [if_neg (by decide)]
      | ⟨2, _⟩ => by show m.val = if (8 : Nat) = 1 then 0 else m.val; rw [if_neg (by decide)]),
    broadcastInDim_apply _ bcast_S1x3x1x1_S16x3x256x8_0_1_2_3 _ (ix4 b h l m) (ix4 (0 : Fin 1) h (0 : Fin 1) (0 : Fin 1)) (fun a => match a with
      | ⟨0, _⟩ => by show 0 = if (1 : Nat) = 1 then 0 else b.val; rw [if_pos rfl]
      | ⟨1, _⟩ => by show h.val = if (3 : Nat) = 1 then 0 else h.val; rw [if_neg (by decide)]
      | ⟨2, _⟩ => by show 0 = if (1 : Nat) = 1 then 0 else l.val; rw [if_pos rfl]
      | ⟨3, _⟩ => by show 0 = if (1 : Nat) = 1 then 0 else m.val; rw [if_pos rfl]),
    broadcastInDim_apply _ bcast_S3_S1x3x1x1_1 offs (ix4 (0 : Fin 1) h (0 : Fin 1) (0 : Fin 1)) (ix1 h) (fun a => match a with
      | ⟨0, _⟩ => by show h.val = if (3 : Nat) = 1 then 0 else h.val; rw [if_neg (by decide)])]

/-- The flat position of (b, h, l, m) in row-major order. -/
private abbrev posQ (b : Fin 16) (h : Fin 3) (l : Fin 256) (m : Fin 8) : Fin 98304 :=
  ⟨((b.val * 3 + h.val) * 256 + l.val) * 8 + m.val, by have := b.isLt; have := h.isLt; have := l.isLt; have := m.isLt; omega⟩

/-- The flattened offset tokens read at the flat position of (b, h, l, m). -/
private theorem flatQ_apply {α : Type} (x : S16x3x256x8.Idx → α) (b : Fin 16) (h : Fin 3) (l : Fin 256) (m : Fin 8) :
    shapeCast S98304 x shapeCasts_S16x3x256x8_S98304 (ix1 (posQ b h l m)) = x (ix4 b h l m) := by
  refine shapeCast_apply x shapeCasts_S16x3x256x8_S98304 _ (ix4 b h l m) ?_
  rewrite [Shape.rowMajor_val_four, Shape.rowMajor_val_one]
  rfl

/-- The gathered rows laid back as [16, 3, 256, 8, 128], read at (b, h, l, m, d). -/
private theorem g5Q_apply {α : Type} (x : S98304x128.Idx → α) (b : Fin 16) (h : Fin 3) (l : Fin 256) (m : Fin 8) (d : Fin 128) :
    shapeCast S16x3x256x8x128 x shapeCasts_S98304x128_S16x3x256x8x128 (ix5 b h l m d) = x (ix2 (posQ b h l m) d) := by
  refine shapeCast_apply x shapeCasts_S98304x128_S16x3x256x8x128 _ (ix2 (posQ b h l m) d) ?_
  rewrite [Shape.rowMajor_val_five, Shape.rowMajor_val_two]
  rfl

/-- The wrapped flat tokens as a column, read at (n, 0): the flat token at `n` when that is below 2³¹. -/
private theorem colQ_apply (flat : IVec S98304 32) (n : Fin 98304) (hv : (flat (ix1 n)).toNat < 2 ^ 31) :
    broadcastInDim S98304x1 ![0] bcast_S98304_S98304x1_0
      (select (cmpi .slt flat (broadcastInDim S98304 ![] bcast_S_S98304 (constantI S_ 32 0#32)))
        (addi flat (broadcastInDim S98304 ![] bcast_S_S98304 (constantI S_ 32 150000#32))) flat) (ix2 n (0 : Fin 1))
      = flat (ix1 n) := by
  rw [broadcastInDim_apply _ bcast_S98304_S98304x1_0 _ (ix2 n (0 : Fin 1)) (ix1 n) (fun a => match a with
    | ⟨0, _⟩ => by show n.val = if (98304 : Nat) = 1 then 0 else n.val; rw [if_neg (by decide)])]
  show Scalar.select (IntOp.cmpi .slt (flat (ix1 n)) (broadcastInDim S98304 ![] bcast_S_S98304 (constantI S_ 32 0#32) (ix1 n)))
    (IntOp.addi (flat (ix1 n)) (broadcastInDim S98304 ![] bcast_S_S98304 (constantI S_ 32 150000#32) (ix1 n))) (flat (ix1 n)) = _
  rw [broadcastInDim_apply _ bcast_S_S98304 (constantI S_ 32 0#32) (ix1 n) ix0 (fun a => a.elim0)]
  exact wrap_eq _ _ hv

/-- The range test at `n`: a column entry in [0, 149999] passes, and the conjunction over the one-entry axis, from
    true, is true. -/
private theorem inbQ_apply (col : IVec S98304x1 32) (n : Fin 98304) (hv : (col (ix2 n (0 : Fin 1))).toNat ≤ 149999) :
    Host.reduce IntOp.andi
      (andi (cmpi .sge col (broadcastInDim S98304x1 ![] bcast_S_S98304x1 (constantI S_ 32 0#32)))
        (cmpi .sle col (broadcastInDim S98304x1 ![0, 1] bcast_S1x1_S98304x1_0_1 (broadcastInDim S1x1 ![1] bcast_S1_S1x1_1 (constantI S1 32 149999#32)))))
      (constantI S_ 1 1#1) reducesTo_S98304x1_S98304_d1 h_S_ (ix1 n) = 1#1 := by
  have hred : S98304x1.Reduces [1] S98304 := by decide
  refine (Host.reduce_eq_fold_single IntOp.andi _ _ reducesTo_S98304x1_S98304_d1 hred h_S_ (ix1 n)).trans ?_
  refine (fold_andi_fin1 _ _).trans ?_
  have hidx : hred.lift (ix1 n) (0 : Fin 1) = ix2 n (0 : Fin 1) := by
    funext a; refine Fin.ext ?_
    match a with
    | ⟨0, _⟩ => rfl
    | ⟨1, _⟩ => rfl
  show IntOp.andi (IntOp.andi (IntOp.cmpi .sge (col (hred.lift (ix1 n) (0 : Fin 1))) (broadcastInDim S98304x1 ![] bcast_S_S98304x1 (constantI S_ 32 0#32) (hred.lift (ix1 n) (0 : Fin 1))))
    (IntOp.cmpi .sle (col (hred.lift (ix1 n) (0 : Fin 1))) (broadcastInDim S98304x1 ![0, 1] bcast_S1x1_S98304x1_0_1 (broadcastInDim S1x1 ![1] bcast_S1_S1x1_1 (constantI S1 32 149999#32)) (hred.lift (ix1 n) (0 : Fin 1))))) 1#1 = 1#1
  rw [hidx]
  rw [broadcastInDim_apply _ bcast_S_S98304x1 (constantI S_ 32 0#32) (ix2 n (0 : Fin 1)) ix0 (fun a => a.elim0),
    broadcastInDim_apply _ bcast_S1x1_S98304x1_0_1 _ (ix2 n (0 : Fin 1)) (ix2 (0 : Fin 1) (0 : Fin 1)) (fun a => match a with
      | ⟨0, _⟩ => by show 0 = if (1 : Nat) = 1 then 0 else n.val; rw [if_pos rfl]
      | ⟨1, _⟩ => by show 0 = if (1 : Nat) = 1 then 0 else 0; rw [if_pos rfl]),
    broadcastInDim_apply _ bcast_S1_S1x1_1 (constantI S1 32 149999#32) (ix2 (0 : Fin 1) (0 : Fin 1)) (ix1 (0 : Fin 1)) (fun a => match a with
      | ⟨0, _⟩ => by show 0 = if (1 : Nat) = 1 then 0 else 0; rw [if_pos rfl])]
  show IntOp.andi (IntOp.andi (IntOp.cmpi .sge (col (ix2 n (0 : Fin 1))) 0#32) (IntOp.cmpi .sle (col (ix2 n (0 : Fin 1))) 149999#32)) 1#1 = 1#1
  rw [inRange_eq _ hv]
  decide

/-- The row gather of the long table read at (n, d): the table at the row the start index `col[n, 0]` names, read signed
    and clamped into its 150000 rows, and at column `d`. Axis 0 of the table is the one the start index addresses and is
    collapsed; axis 1 is kept whole and read at the result's last coordinate. -/
private theorem gatherQ_apply {α : Type} (x : S150000x128.Idx → α) (col : IVec S98304x1 32) (n : Fin 98304) (d : Fin 128) :
    Host.gather gather_S150000x128_S98304x1_S98304x128_1_0_n_n_0_1_1128 x col (ix2 n d)
      = x (ix2 ⟨min (col (ix2 n (0 : Fin 1))).toInt.toNat 149999, by omega⟩ d) := by
  unfold Host.gather
  congr 1
  funext a
  refine Fin.ext ?_
  match a with
  | ⟨0, _⟩ =>
    show gather_S150000x128_S98304x1_S98304x128_1_0_n_n_0_1_1128.start (ix2 n d) col 0
      + gather_S150000x128_S98304x1_S98304x128_1_0_n_n_0_1_1128.batchCoord (ix2 n d) 0
      + gather_S150000x128_S98304x1_S98304x128_1_0_n_n_0_1_1128.offCoord (ix2 n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S150000x128_S98304x1_S98304x128_1_0_n_n_0_1_1128.startIndexMap from
      List.mem_singleton.mpr rfl)]
    have hsi : gather_S150000x128_S98304x1_S98304x128_1_0_n_n_0_1_1128.siIdx (ix2 n d)
        ⟨List.idxOf (0 : Fin 2) gather_S150000x128_S98304x1_S98304x128_1_0_n_n_0_1_1128.startIndexMap,
          List.idxOf_lt_length_iff.2 (List.mem_singleton.mpr rfl)⟩ = ix2 n (0 : Fin 1) := by
      funext c; refine Fin.ext ?_
      match c with
      | ⟨0, _⟩ => rfl
      | ⟨1, _⟩ => rfl
    rw [hsi]
    rfl
  | ⟨1, _⟩ =>
    show gather_S150000x128_S98304x1_S98304x128_1_0_n_n_0_1_1128.start (ix2 n d) col 1
      + gather_S150000x128_S98304x1_S98304x128_1_0_n_n_0_1_1128.batchCoord (ix2 n d) 1
      + gather_S150000x128_S98304x1_S98304x128_1_0_n_n_0_1_1128.offCoord (ix2 n d) 1 = d.val
    rw [GatherDims.batchCoord_eq_zero _ _ _ List.not_mem_nil]
    unfold GatherDims.start
    rw [dif_neg (show ¬ (1 : Fin 2) ∈ gather_S150000x128_S98304x1_S98304x128_1_0_n_n_0_1_1128.startIndexMap by decide)]
    unfold GatherDims.offCoord
    rw [dif_pos (show (1 : Fin 2) ∈ gather_S150000x128_S98304x1_S98304x128_1_0_n_n_0_1_1128.sKept by decide)]
    rw [Nat.zero_add]
    exact congrArg (fun i => (ix2 n d i).val)
      (show gather_S150000x128_S98304x1_S98304x128_1_0_n_n_0_1_1128.offsetDims[List.idxOf (1 : Fin 2)
        gather_S150000x128_S98304x1_S98304x128_1_0_n_n_0_1_1128.sKept]'_ = (1 : Fin 2) by decide)

/-- Where the range test at `n` is true, the selection at (n, d) takes the gathered row's entry, not the fill value. -/
private theorem takenQ_apply {α : Type} (inb : IVec S98304 1) (rows fill : S98304x128.Idx → α)
    (n : Fin 98304) (d : Fin 128) (hinb : inb (ix1 n) = 1#1) :
    select (broadcastInDim S98304x128 ![0] bcast_S98304_S98304x128_0 inb) rows fill (ix2 n d) = rows (ix2 n d) := by
  show Scalar.select (broadcastInDim S98304x128 ![0] bcast_S98304_S98304x128_0 inb (ix2 n d)) (rows (ix2 n d)) (fill (ix2 n d)) = _
  rw [broadcastInDim_apply _ bcast_S98304_S98304x128_0 inb (ix2 n d) (ix1 n) (fun a => match a with
    | ⟨0, _⟩ => by show n.val = if (98304 : Nat) = 1 then 0 else n.val; rw [if_neg (by decide)]), hinb, select_one]

/-- The sum over the span axis read at (b, h, l, d): from zero, the eight entries (b, h, l, m, d). -/
private theorem sumQ_apply (y : FVec Ideal S16x3x256x8x128 .f32) (b : Fin 16) (h : Fin 3) (l : Fin 256) (d : Fin 128) :
    Host.reduceAdd y (constant S_ .f32 0x00000000#32) reducesTo_S16x3x256x8x128_S16x3x256x128_d3 h_S_ (ix4 b h l d)
      = ∑ m : Fin 8, y (ix5 b h l m d) := by
  simp only [Host.reduceAdd, Ideal.hostReduceAdd_def]
  rw [Ideal.hostReduceAdd_single reducesTo_S16x3x256x8x128_S16x3x256x128_d3 (by decide)]
  show Ideal.ofBits .f32 0x00000000#32 + _ = _
  rw [Ideal.ofBits_zero_f32, zero_add]
  refine Finset.sum_congr rfl fun m _ => ?_
  exact congrArg y (funext fun a => Fin.ext (by
    match a with
    | ⟨0, _⟩ => rfl
    | ⟨1, _⟩ => rfl
    | ⟨2, _⟩ => rfl
    | ⟨3, _⟩ => rfl
    | ⟨4, _⟩ => rfl))

/-- The flat tokens after the move up of negative ones, as a column. -/
private abbrev colOfQ (flat : IVec S98304 32) : IVec S98304x1 32 :=
  broadcastInDim S98304x1 ![0] bcast_S98304_S98304x1_0
    (select (cmpi .slt flat (broadcastInDim S98304 ![] bcast_S_S98304 (constantI S_ 32 0#32)))
      (addi flat (broadcastInDim S98304 ![] bcast_S_S98304 (constantI S_ 32 150000#32))) flat)

/-- One selected entry: where the flat token at `n` is the word of `k ≤ 149999`, the entry (n, d) after the range test,
    the gather and the selection is the long table's entry (k, d). -/
private theorem entryQ {α : Type} (x : S150000x128.Idx → α) (fill : S98304x128.Idx → α) (flat : IVec S98304 32)
    (n : Fin 98304) (d : Fin 128) (k : Nat) (hk : k ≤ 149999) (hflat : (flat (ix1 n)).toNat = k) :
    select (broadcastInDim S98304x128 ![0] bcast_S98304_S98304x128_0
        (Host.reduce IntOp.andi
          (andi (cmpi .sge (colOfQ flat) (broadcastInDim S98304x1 ![] bcast_S_S98304x1 (constantI S_ 32 0#32)))
            (cmpi .sle (colOfQ flat) (broadcastInDim S98304x1 ![0, 1] bcast_S1x1_S98304x1_0_1 (broadcastInDim S1x1 ![1] bcast_S1_S1x1_1 (constantI S1 32 149999#32)))))
          (constantI S_ 1 1#1) reducesTo_S98304x1_S98304_d1 h_S_))
      (Host.gather gather_S150000x128_S98304x1_S98304x128_1_0_n_n_0_1_1128 x (colOfQ flat)) fill (ix2 n d)
      = x (ix2 ⟨k, by omega⟩ d) := by
  have hcol : colOfQ flat (ix2 n (0 : Fin 1)) = flat (ix1 n) := colQ_apply flat n (by omega)
  rw [takenQ_apply _ _ _ n d (inbQ_apply (colOfQ flat) n (by rw [hcol]; omega)), gatherQ_apply]
  refine congrArg x (congrArg (fun r => ix2 r d) (Fin.ext ?_))
  show min (BitVec.toInt _).toNat 149999 = k
  rw [hcol, StableHlo.Predicate.toInt_eq_toNat_of_lt (by omega), hflat]
  show min k 149999 = k
  omega

/-- With every token below 50000, the conversation bag at (b, h, l, d) sums the rows of hop `h`'s table
    that the eight tokens of (b, l) name. -/
theorem bagQ_apply (T : FVec Ideal S3x50000x128 .f32) (ids : IVec S16x256x8 32) (hin : ∀ i, (ids i).toNat < 50000)
    (b : Fin 16) (h : Fin 3) (l : Fin 256) (d : Fin 128) :
    bagQ (F := Ideal) T ids (ix4 b h l d) = bag (fun r d => T (ix3 h r d)) (fun m => ids (ix3 b l m)) d := by
  unfold bagQ bag
  refine (sumQ_apply _ b h l d).trans ?_
  refine Finset.sum_congr rfl fun m _ => ?_
  refine (g5Q_apply _ b h l m d).trans ?_
  have hv := hin (ix3 b l m)
  have hh := h.isLt
  refine (entryQ _ _ _ (posQ b h l m) d (50000 * h.val + (ids (ix3 b l m)).toNat) (by omega) ?_).trans ?_
  · rw [flatQ_apply, idx4Q_apply]
    show (ids (ix3 b l m) + _).toNat = _
    rw [BitVec.toNat_add, offs_toNat]
    omega
  · have hrow : (row (ids (ix3 b l m))).val = (ids (ix3 b l m)).toNat := row_val_of_lt hv
    refine Eq.trans ?_ (tab_apply T h (row (ids (ix3 b l m))) d (by omega))
    exact congrArg _ (congrArg (fun r => ix2 r d) (Fin.ext (by
      show 50000 * h.val + (ids (ix3 b l m)).toNat = 50000 * h.val + (row (ids (ix3 b l m))).val
      omega)))

/-! ## The knowledge-base side -/

/-- The offset token at (b, h, k, m): the token at (b, k, m) plus hop `h`'s offset. -/
private theorem idx4K_apply (ids : IVec S16x512x8 32) (offs : IVec S3 32) (b : Fin 16) (h : Fin 3) (k : Fin 512) (m : Fin 8) :
    addi
      (broadcastInDim S16x3x512x8 ![0, 1, 2, 3] bcast_S16x1x512x8_S16x3x512x8_0_1_2_3
        (broadcastInDim S16x1x512x8 ![0, 2, 3] bcast_S16x512x8_S16x1x512x8_0_2_3 ids))
      (broadcastInDim S16x3x512x8 ![0, 1, 2, 3] bcast_S1x3x1x1_S16x3x512x8_0_1_2_3
        (broadcastInDim S1x3x1x1 ![1] bcast_S3_S1x3x1x1_1 offs)) (ix4 b h k m)
      = IntOp.addi (ids (ix3 b k m)) (offs (ix1 h)) := by
  show IntOp.addi
    (broadcastInDim S16x3x512x8 ![0, 1, 2, 3] bcast_S16x1x512x8_S16x3x512x8_0_1_2_3
      (broadcastInDim S16x1x512x8 ![0, 2, 3] bcast_S16x512x8_S16x1x512x8_0_2_3 ids) (ix4 b h k m))
    (broadcastInDim S16x3x512x8 ![0, 1, 2, 3] bcast_S1x3x1x1_S16x3x512x8_0_1_2_3
      (broadcastInDim S1x3x1x1 ![1] bcast_S3_S1x3x1x1_1 offs) (ix4 b h k m)) = _
  rw [broadcastInDim_apply _ bcast_S16x1x512x8_S16x3x512x8_0_1_2_3 _ (ix4 b h k m) (ix4 b (0 : Fin 1) k m) (fun a => match a with
      | ⟨0, _⟩ => by show b.val = if (16 : Nat) = 1 then 0 else b.val; rw [if_neg (by decide)]
      | ⟨1, _⟩ => by show 0 = if (1 : Nat) = 1 then 0 else h.val; rw [if_pos rfl]
      | ⟨2, _⟩ => by show k.val = if (512 : Nat) = 1 then 0 else k.val; rw [if_neg (by decide)]
      | ⟨3, _⟩ => by show m.val = if (8 : Nat) = 1 then 0 else m.val; rw [if_neg (by decide)]),
    broadcastInDim_apply _ bcast_S16x512x8_S16x1x512x8_0_2_3 ids (ix4 b (0 : Fin 1) k m) (ix3 b k m) (fun a => match a with
      | ⟨0, _⟩ => by show b.val = if (16 : Nat) = 1 then 0 else b.val; rw [if_neg (by decide)]
      | ⟨1, _⟩ => by show k.val = if (512 : Nat) = 1 then 0 else k.val; rw [if_neg (by decide)]
      | ⟨2, _⟩ => by show m.val = if (8 : Nat) = 1 then 0 else m.val; rw [if_neg (by decide)]),
    broadcastInDim_apply _ bcast_S1x3x1x1_S16x3x512x8_0_1_2_3 _ (ix4 b h k m) (ix4 (0 : Fin 1) h (0 : Fin 1) (0 : Fin 1)) (fun a => match a with
      | ⟨0, _⟩ => by show 0 = if (1 : Nat) = 1 then 0 else b.val; rw [if_pos rfl]
      | ⟨1, _⟩ => by show h.val = if (3 : Nat) = 1 then 0 else h.val; rw [if_neg (by decide)]
      | ⟨2, _⟩ => by show 0 = if (1 : Nat) = 1 then 0 else k.val; rw [if_pos rfl]
      | ⟨3, _⟩ => by show 0 = if (1 : Nat) = 1 then 0 else m.val; rw [if_pos rfl]),
    broadcastInDim_apply _ bcast_S3_S1x3x1x1_1 offs (ix4 (0 : Fin 1) h (0 : Fin 1) (0 : Fin 1)) (ix1 h) (fun a => match a with
      | ⟨0, _⟩ => by show h.val = if (3 : Nat) = 1 then 0 else h.val; rw [if_neg (by decide)])]

/-- The flat position of (b, h, k, m) in row-major order. -/
private abbrev posK (b : Fin 16) (h : Fin 3) (k : Fin 512) (m : Fin 8) : Fin 196608 :=
  ⟨((b.val * 3 + h.val) * 512 + k.val) * 8 + m.val, by have := b.isLt; have := h.isLt; have := k.isLt; have := m.isLt; omega⟩

/-- The flattened offset tokens read at the flat position of (b, h, k, m). -/
private theorem flatK_apply {α : Type} (x : S16x3x512x8.Idx → α) (b : Fin 16) (h : Fin 3) (k : Fin 512) (m : Fin 8) :
    shapeCast S196608 x shapeCasts_S16x3x512x8_S196608 (ix1 (posK b h k m)) = x (ix4 b h k m) := by
  refine shapeCast_apply x shapeCasts_S16x3x512x8_S196608 _ (ix4 b h k m) ?_
  rewrite [Shape.rowMajor_val_four, Shape.rowMajor_val_one]
  rfl

/-- The gathered rows laid back as [16, 3, 512, 8, 128], read at (b, h, k, m, d). -/
private theorem g5K_apply {α : Type} (x : S196608x128.Idx → α) (b : Fin 16) (h : Fin 3) (k : Fin 512) (m : Fin 8) (d : Fin 128) :
    shapeCast S16x3x512x8x128 x shapeCasts_S196608x128_S16x3x512x8x128 (ix5 b h k m d) = x (ix2 (posK b h k m) d) := by
  refine shapeCast_apply x shapeCasts_S196608x128_S16x3x512x8x128 _ (ix2 (posK b h k m) d) ?_
  rewrite [Shape.rowMajor_val_five, Shape.rowMajor_val_two]
  rfl

/-- The wrapped flat tokens as a column, read at (n, 0): the flat token at `n` when that is below 2³¹. -/
private theorem colK_apply (flat : IVec S196608 32) (n : Fin 196608) (hv : (flat (ix1 n)).toNat < 2 ^ 31) :
    broadcastInDim S196608x1 ![0] bcast_S196608_S196608x1_0
      (select (cmpi .slt flat (broadcastInDim S196608 ![] bcast_S_S196608 (constantI S_ 32 0#32)))
        (addi flat (broadcastInDim S196608 ![] bcast_S_S196608 (constantI S_ 32 150000#32))) flat) (ix2 n (0 : Fin 1))
      = flat (ix1 n) := by
  rw [broadcastInDim_apply _ bcast_S196608_S196608x1_0 _ (ix2 n (0 : Fin 1)) (ix1 n) (fun a => match a with
    | ⟨0, _⟩ => by show n.val = if (196608 : Nat) = 1 then 0 else n.val; rw [if_neg (by decide)])]
  show Scalar.select (IntOp.cmpi .slt (flat (ix1 n)) (broadcastInDim S196608 ![] bcast_S_S196608 (constantI S_ 32 0#32) (ix1 n)))
    (IntOp.addi (flat (ix1 n)) (broadcastInDim S196608 ![] bcast_S_S196608 (constantI S_ 32 150000#32) (ix1 n))) (flat (ix1 n)) = _
  rw [broadcastInDim_apply _ bcast_S_S196608 (constantI S_ 32 0#32) (ix1 n) ix0 (fun a => a.elim0)]
  exact wrap_eq _ _ hv

/-- The range test at `n`: a column entry in [0, 149999] passes, and the conjunction over the one-entry axis, from
    true, is true. -/
private theorem inbK_apply (col : IVec S196608x1 32) (n : Fin 196608) (hv : (col (ix2 n (0 : Fin 1))).toNat ≤ 149999) :
    Host.reduce IntOp.andi
      (andi (cmpi .sge col (broadcastInDim S196608x1 ![] bcast_S_S196608x1 (constantI S_ 32 0#32)))
        (cmpi .sle col (broadcastInDim S196608x1 ![0, 1] bcast_S1x1_S196608x1_0_1 (broadcastInDim S1x1 ![1] bcast_S1_S1x1_1 (constantI S1 32 149999#32)))))
      (constantI S_ 1 1#1) reducesTo_S196608x1_S196608_d1 h_S_ (ix1 n) = 1#1 := by
  have hred : S196608x1.Reduces [1] S196608 := by decide
  refine (Host.reduce_eq_fold_single IntOp.andi _ _ reducesTo_S196608x1_S196608_d1 hred h_S_ (ix1 n)).trans ?_
  refine (fold_andi_fin1 _ _).trans ?_
  have hidx : hred.lift (ix1 n) (0 : Fin 1) = ix2 n (0 : Fin 1) := by
    funext a; refine Fin.ext ?_
    match a with
    | ⟨0, _⟩ => rfl
    | ⟨1, _⟩ => rfl
  show IntOp.andi (IntOp.andi (IntOp.cmpi .sge (col (hred.lift (ix1 n) (0 : Fin 1))) (broadcastInDim S196608x1 ![] bcast_S_S196608x1 (constantI S_ 32 0#32) (hred.lift (ix1 n) (0 : Fin 1))))
    (IntOp.cmpi .sle (col (hred.lift (ix1 n) (0 : Fin 1))) (broadcastInDim S196608x1 ![0, 1] bcast_S1x1_S196608x1_0_1 (broadcastInDim S1x1 ![1] bcast_S1_S1x1_1 (constantI S1 32 149999#32)) (hred.lift (ix1 n) (0 : Fin 1))))) 1#1 = 1#1
  rw [hidx]
  rw [broadcastInDim_apply _ bcast_S_S196608x1 (constantI S_ 32 0#32) (ix2 n (0 : Fin 1)) ix0 (fun a => a.elim0),
    broadcastInDim_apply _ bcast_S1x1_S196608x1_0_1 _ (ix2 n (0 : Fin 1)) (ix2 (0 : Fin 1) (0 : Fin 1)) (fun a => match a with
      | ⟨0, _⟩ => by show 0 = if (1 : Nat) = 1 then 0 else n.val; rw [if_pos rfl]
      | ⟨1, _⟩ => by show 0 = if (1 : Nat) = 1 then 0 else 0; rw [if_pos rfl]),
    broadcastInDim_apply _ bcast_S1_S1x1_1 (constantI S1 32 149999#32) (ix2 (0 : Fin 1) (0 : Fin 1)) (ix1 (0 : Fin 1)) (fun a => match a with
      | ⟨0, _⟩ => by show 0 = if (1 : Nat) = 1 then 0 else 0; rw [if_pos rfl])]
  show IntOp.andi (IntOp.andi (IntOp.cmpi .sge (col (ix2 n (0 : Fin 1))) 0#32) (IntOp.cmpi .sle (col (ix2 n (0 : Fin 1))) 149999#32)) 1#1 = 1#1
  rw [inRange_eq _ hv]
  decide

/-- The row gather of the long table read at (n, d) on the knowledge-base side: the table at the row the start index
    `col[n, 0]` names, read signed and clamped into its 150000 rows, and at column `d`. -/
private theorem gatherK_apply {α : Type} (x : S150000x128.Idx → α) (col : IVec S196608x1 32) (n : Fin 196608) (d : Fin 128) :
    Host.gather gather_S150000x128_S196608x1_S196608x128_1_0_n_n_0_1_1128 x col (ix2 n d)
      = x (ix2 ⟨min (col (ix2 n (0 : Fin 1))).toInt.toNat 149999, by omega⟩ d) := by
  unfold Host.gather
  congr 1
  funext a
  refine Fin.ext ?_
  match a with
  | ⟨0, _⟩ =>
    show gather_S150000x128_S196608x1_S196608x128_1_0_n_n_0_1_1128.start (ix2 n d) col 0
      + gather_S150000x128_S196608x1_S196608x128_1_0_n_n_0_1_1128.batchCoord (ix2 n d) 0
      + gather_S150000x128_S196608x1_S196608x128_1_0_n_n_0_1_1128.offCoord (ix2 n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S150000x128_S196608x1_S196608x128_1_0_n_n_0_1_1128.startIndexMap from
      List.mem_singleton.mpr rfl)]
    have hsi : gather_S150000x128_S196608x1_S196608x128_1_0_n_n_0_1_1128.siIdx (ix2 n d)
        ⟨List.idxOf (0 : Fin 2) gather_S150000x128_S196608x1_S196608x128_1_0_n_n_0_1_1128.startIndexMap,
          List.idxOf_lt_length_iff.2 (List.mem_singleton.mpr rfl)⟩ = ix2 n (0 : Fin 1) := by
      funext c; refine Fin.ext ?_
      match c with
      | ⟨0, _⟩ => rfl
      | ⟨1, _⟩ => rfl
    rw [hsi]
    rfl
  | ⟨1, _⟩ =>
    show gather_S150000x128_S196608x1_S196608x128_1_0_n_n_0_1_1128.start (ix2 n d) col 1
      + gather_S150000x128_S196608x1_S196608x128_1_0_n_n_0_1_1128.batchCoord (ix2 n d) 1
      + gather_S150000x128_S196608x1_S196608x128_1_0_n_n_0_1_1128.offCoord (ix2 n d) 1 = d.val
    rw [GatherDims.batchCoord_eq_zero _ _ _ List.not_mem_nil]
    unfold GatherDims.start
    rw [dif_neg (show ¬ (1 : Fin 2) ∈ gather_S150000x128_S196608x1_S196608x128_1_0_n_n_0_1_1128.startIndexMap by decide)]
    unfold GatherDims.offCoord
    rw [dif_pos (show (1 : Fin 2) ∈ gather_S150000x128_S196608x1_S196608x128_1_0_n_n_0_1_1128.sKept by decide)]
    rw [Nat.zero_add]
    exact congrArg (fun i => (ix2 n d i).val)
      (show gather_S150000x128_S196608x1_S196608x128_1_0_n_n_0_1_1128.offsetDims[List.idxOf (1 : Fin 2)
        gather_S150000x128_S196608x1_S196608x128_1_0_n_n_0_1_1128.sKept]'_ = (1 : Fin 2) by decide)

/-- Where the range test at `n` is true, the selection at (n, d) takes the gathered row's entry, not the fill value. -/
private theorem takenK_apply {α : Type} (inb : IVec S196608 1) (rows fill : S196608x128.Idx → α)
    (n : Fin 196608) (d : Fin 128) (hinb : inb (ix1 n) = 1#1) :
    select (broadcastInDim S196608x128 ![0] bcast_S196608_S196608x128_0 inb) rows fill (ix2 n d) = rows (ix2 n d) := by
  show Scalar.select (broadcastInDim S196608x128 ![0] bcast_S196608_S196608x128_0 inb (ix2 n d)) (rows (ix2 n d)) (fill (ix2 n d)) = _
  rw [broadcastInDim_apply _ bcast_S196608_S196608x128_0 inb (ix2 n d) (ix1 n) (fun a => match a with
    | ⟨0, _⟩ => by show n.val = if (196608 : Nat) = 1 then 0 else n.val; rw [if_neg (by decide)]), hinb, select_one]

/-- The sum over the span axis read at (b, h, k, d): from zero, the eight entries (b, h, k, m, d). -/
private theorem sumK_apply (y : FVec Ideal S16x3x512x8x128 .f32) (b : Fin 16) (h : Fin 3) (k : Fin 512) (d : Fin 128) :
    Host.reduceAdd y (constant S_ .f32 0x00000000#32) reducesTo_S16x3x512x8x128_S16x3x512x128_d3 h_S_ (ix4 b h k d)
      = ∑ m : Fin 8, y (ix5 b h k m d) := by
  simp only [Host.reduceAdd, Ideal.hostReduceAdd_def]
  rw [Ideal.hostReduceAdd_single reducesTo_S16x3x512x8x128_S16x3x512x128_d3 (by decide)]
  show Ideal.ofBits .f32 0x00000000#32 + _ = _
  rw [Ideal.ofBits_zero_f32, zero_add]
  refine Finset.sum_congr rfl fun m _ => ?_
  exact congrArg y (funext fun a => Fin.ext (by
    match a with
    | ⟨0, _⟩ => rfl
    | ⟨1, _⟩ => rfl
    | ⟨2, _⟩ => rfl
    | ⟨3, _⟩ => rfl
    | ⟨4, _⟩ => rfl))

/-- The flat tokens after the move up of negative ones, as a column. -/
private abbrev colOfK (flat : IVec S196608 32) : IVec S196608x1 32 :=
  broadcastInDim S196608x1 ![0] bcast_S196608_S196608x1_0
    (select (cmpi .slt flat (broadcastInDim S196608 ![] bcast_S_S196608 (constantI S_ 32 0#32)))
      (addi flat (broadcastInDim S196608 ![] bcast_S_S196608 (constantI S_ 32 150000#32))) flat)

/-- One selected entry: where the flat token at `n` is the word of `j ≤ 149999`, the entry (n, d) after the range test,
    the gather and the selection is the long table's entry (j, d). -/
private theorem entryK {α : Type} (x : S150000x128.Idx → α) (fill : S196608x128.Idx → α) (flat : IVec S196608 32)
    (n : Fin 196608) (d : Fin 128) (j : Nat) (hj : j ≤ 149999) (hflat : (flat (ix1 n)).toNat = j) :
    select (broadcastInDim S196608x128 ![0] bcast_S196608_S196608x128_0
        (Host.reduce IntOp.andi
          (andi (cmpi .sge (colOfK flat) (broadcastInDim S196608x1 ![] bcast_S_S196608x1 (constantI S_ 32 0#32)))
            (cmpi .sle (colOfK flat) (broadcastInDim S196608x1 ![0, 1] bcast_S1x1_S196608x1_0_1 (broadcastInDim S1x1 ![1] bcast_S1_S1x1_1 (constantI S1 32 149999#32)))))
          (constantI S_ 1 1#1) reducesTo_S196608x1_S196608_d1 h_S_))
      (Host.gather gather_S150000x128_S196608x1_S196608x128_1_0_n_n_0_1_1128 x (colOfK flat)) fill (ix2 n d)
      = x (ix2 ⟨j, by omega⟩ d) := by
  have hcol : colOfK flat (ix2 n (0 : Fin 1)) = flat (ix1 n) := colK_apply flat n (by omega)
  rw [takenK_apply _ _ _ n d (inbK_apply (colOfK flat) n (by rw [hcol]; omega)), gatherK_apply]
  refine congrArg x (congrArg (fun r => ix2 r d) (Fin.ext ?_))
  show min (BitVec.toInt _).toNat 149999 = j
  rw [hcol, StableHlo.Predicate.toInt_eq_toNat_of_lt (by omega), hflat]
  show min j 149999 = j
  omega

/-- The same for the knowledge-base bag at (b, h, k, d). -/
theorem bagK_apply (T : FVec Ideal S3x50000x128 .f32) (ids : IVec S16x512x8 32) (hin : ∀ i, (ids i).toNat < 50000)
    (b : Fin 16) (h : Fin 3) (k : Fin 512) (d : Fin 128) :
    bagK (F := Ideal) T ids (ix4 b h k d) = bag (fun r d => T (ix3 h r d)) (fun m => ids (ix3 b k m)) d := by
  unfold bagK bag
  refine (sumK_apply _ b h k d).trans ?_
  refine Finset.sum_congr rfl fun m _ => ?_
  refine (g5K_apply _ b h k m d).trans ?_
  have hv := hin (ix3 b k m)
  have hh := h.isLt
  refine (entryK _ _ _ (posK b h k m) d (50000 * h.val + (ids (ix3 b k m)).toNat) (by omega) ?_).trans ?_
  · rw [flatK_apply, idx4K_apply]
    show (ids (ix3 b k m) + _).toNat = _
    rw [BitVec.toNat_add, offs_toNat]
    omega
  · have hrow : (row (ids (ix3 b k m))).val = (ids (ix3 b k m)).toNat := row_val_of_lt hv
    refine Eq.trans ?_ (tab_apply T h (row (ids (ix3 b k m))) d (by omega))
    exact congrArg _ (congrArg (fun r => ix2 r d) (Fin.ext (by
      show 50000 * h.val + (ids (ix3 b k m)).toNat = 50000 * h.val + (row (ids (ix3 b k m))).val
      omega)))

end Cert.KernelIdeal.Bag

end
-- ==== Proof.KernelBlocks.lean ====
/-
  What the pallas_call finds and what each grid point stages. The two staged arrays are the
  embedding bags the host lines before the call make (`Bag.bagQ`, `Bag.bagK`); grid point `t` stages
  batch item `t`'s [3, L, 128] slices of them: the block's entry (0, h, l, d) is the array's
  entry (t, h, l, d).
-/
import proofs.«426875_j21844203668322_3_alg».proof.Proof.Gen.KernelIdeal.Frame
import proofs.«426875_j21844203668322_3_alg».proof.Proof.KernelBag
import proofs.«426875_j21844203668322_3_alg».proof.Proof.Attention
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.Attention
open Idealize.ShloMosaic.Pipeline (Dat)

variable (m : (ℓ : Loc nD τ sig) → Buf (Elt Ideal) ℓ) (ρ : Dev nD → PrngReg)

/-! ## The arrays the region finds -/

/-- The staged query array, at its literal type. -/
abbrev qarr (c : Dev nD) : FVec Ideal S16x3x256x128 .bf16 := V m c main_v18
/-- The staged key array, at its literal type. -/
abbrev karr (c : Dev nD) : FVec Ideal S16x3x512x128 .bf16 := V m c main_v24

set_option maxRecDepth 200000 in
set_option maxHeartbeats 4000000 in
/-- The query array is the conversation tokens' bags in the three hops' first tables. -/
theorem qarr_eq (c : Dev nD) :
    qarr m c = Bag.bagQ (F := Ideal) (m ((c : Thread nD τ).loc main_arg2)) (m ((c : Thread nD τ).loc main_arg0)) := by
  show (V m c main_v18 : S16x3x256x128.Idx → Ideal .bf16) = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  simp only [TRef.toBuf, TRef.ofBuf, cast_eq]
  rfl

set_option maxRecDepth 200000 in
set_option maxHeartbeats 4000000 in
/-- The key array is the knowledge-base tokens' bags in the three hops' second tables. -/
theorem karr_eq (c : Dev nD) :
    karr m c = Bag.bagK (F := Ideal) (m ((c : Thread nD τ).loc main_arg3)) (m ((c : Thread nD τ).loc main_arg1)) := by
  show (V m c main_v24 : S16x3x512x128.Idx → Ideal .bf16) = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  simp only [TRef.toBuf, TRef.ofBuf, cast_eq]
  rfl

/-! ## The blocks a grid point stages -/

/-- The query block of point `t`, at its literal type. -/
abbrev qblk (c : Dev nD) (t : Fin cfg0.N) : Vec Ideal S1x3x256x128 .bf16 := iblk m c 0 t
/-- The key block of point `t`, at its literal type. -/
abbrev kblk (c : Dev nD) (t : Fin cfg0.N) : Vec Ideal S1x3x512x128 .bf16 := iblk m c 1 t

/-- The printed index maps over the sixteen points: point `t` stages batch item `t` of all three arrays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- A grid point as a batch item. -/
def item (t : Fin cfg0.N) : Fin 16 := ⟨t.val, by have h := t.isLt; have e : cfg0.N = 16 := N_0; omega⟩

/-- The query block's entry (0, h, l, d) is the query array's entry (t, h, l, d). -/
theorem qblk_apply (c : Dev nD) (t : Fin cfg0.N) (h : Fin 3) (l : Fin 256) (d : Fin 128) :
    qblk m c t (ix4 (0 : Fin 1) h l d) = qarr m c (ix4 (item t) h l d) := by
  obtain ⟨e0, e1, e2, e3, -⟩ := idx_facts t
  show V m c main_v18 (((cfg0.win 0).blk t).view.emb (ix4 (0 : Fin 1) h l d)) = V m c main_v18 (ix4 (item t) h l d)
  refine congrArg (V m c main_v18) (funext fun a => Fin.ext ?_)
  match a with
  | ⟨0, _⟩ => show win0_0.index t (0 : Fin 4) * 1 + 1 * 0 = t.val; omega
  | ⟨1, _⟩ => show win0_0.index t (1 : Fin 4) * 3 + 1 * h.val = h.val; omega
  | ⟨2, _⟩ => show win0_0.index t (2 : Fin 4) * 256 + 1 * l.val = l.val; omega
  | ⟨3, _⟩ => show win0_0.index t (3 : Fin 4) * 128 + 1 * d.val = d.val; omega

/-- The key block's entry (0, h, k, d) is the key array's entry (t, h, k, d). -/
theorem kblk_apply (c : Dev nD) (t : Fin cfg0.N) (h : Fin 3) (k : Fin 512) (d : Fin 128) :
    kblk m c t (ix4 (0 : Fin 1) h k d) = karr m c (ix4 (item t) h k d) := by
  obtain ⟨-, -, -, -, e0, e1, e2, e3, -⟩ := idx_facts t
  show V m c main_v24 (((cfg0.win 1).blk t).view.emb (ix4 (0 : Fin 1) h k d)) = V m c main_v24 (ix4 (item t) h k d)
  refine congrArg (V m c main_v24) (funext fun a => Fin.ext ?_)
  match a with
  | ⟨0, _⟩ => show win0_1.index t (0 : Fin 4) * 1 + 1 * 0 = t.val; omega
  | ⟨1, _⟩ => show win0_1.index t (1 : Fin 4) * 3 + 1 * h.val = h.val; omega
  | ⟨2, _⟩ => show win0_1.index t (2 : Fin 4) * 512 + 1 * k.val = k.val; omega
  | ⟨3, _⟩ => show win0_1.index t (3 : Fin 4) * 128 + 1 * d.val = d.val; omega

end Cert.KernelIdeal.Blocks

end
-- ==== Proof.KernelHop.lean ====
/-
  One hop of the kernel's body as a function of a query block (256×128) and a key block (512×128):
  logits by the first matrix product, the row maximum, the shifted exponentials, their row sum, the
  quotient, and the second matrix product with the same key block. The body's three payloads are this
  function applied to the three hop slices of the staged blocks, added up from zero; read at an entry
  it is `Attention.readout` of the blocks' entries.
-/
import proofs.«426875_j21844203668322_3_alg».proof.KernelIdeal
import proofs.«426875_j21844203668322_3_alg».proof.Proof.Gen.KernelIdeal
import proofs.«426875_j21844203668322_3_alg».proof.Proof.Gen.KernelIdeal.Skeleton
import proofs.«426875_j21844203668322_3_alg».proof.Proof.Attention
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hop

open Idealize.ShloMosaic Idealize.ShloMosaic.ValueIdx Cert.KernelIdeal Cert.KernelIdeal.Gen Cert.Attention

variable {F : FTy → Type} [FloatOps F]

/-! ## Layout operations read at an index given by coordinates -/

section Layout
variable {α : Type}

/-- An `[a]` array cast to `[a, 1]` reads, at `(i, u)`, the operand at `i`, whatever the unit coordinate `u`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
private theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Layout

/-! ## The two matrix products read at an entry -/

private theorem d1_lhs_0 (i : S256x512.Idx) (q : dot_S256x128_S512x128_S256x512_1_1_0_0_n_n.contr.Idx) :
    (dot_S256x128_S512x128_S256x512_1_1_0_0_n_n.lhsIdx i q 0).val = (i 0).val := by
  unfold DotDims.lhsIdx
  rw [dif_neg (show ¬(0 : Fin S256x128.rank) ∈ dot_S256x128_S512x128_S256x512_1_1_0_0_n_n.lhsBatch by decide), dif_pos (show (0 : Fin S256x128.rank) ∈ dot_S256x128_S512x128_S256x512_1_1_0_0_n_n.lhsNonContracting by decide)]
  rfl
private theorem d1_lhs_1 (i : S256x512.Idx) (q : dot_S256x128_S512x128_S256x512_1_1_0_0_n_n.contr.Idx) :
    (dot_S256x128_S512x128_S256x512_1_1_0_0_n_n.lhsIdx i q 1).val = (q ⟨0, by decide⟩).val :=
  dot_S256x128_S512x128_S256x512_1_1_0_0_n_n.lhsIdx_val_of_single rfl i q
private theorem d1_rhs_0 (i : S256x512.Idx) (q : dot_S256x128_S512x128_S256x512_1_1_0_0_n_n.contr.Idx) :
    (dot_S256x128_S512x128_S256x512_1_1_0_0_n_n.rhsIdx i q 0).val = (i 1).val := by
  unfold DotDims.rhsIdx
  rw [dif_neg (show ¬(0 : Fin S512x128.rank) ∈ dot_S256x128_S512x128_S256x512_1_1_0_0_n_n.rhsBatch by decide), dif_pos (show (0 : Fin S512x128.rank) ∈ dot_S256x128_S512x128_S256x512_1_1_0_0_n_n.rhsNonContracting by decide)]
  rfl
private theorem d1_rhs_1 (i : S256x512.Idx) (q : dot_S256x128_S512x128_S256x512_1_1_0_0_n_n.contr.Idx) :
    (dot_S256x128_S512x128_S256x512_1_1_0_0_n_n.rhsIdx i q 1).val = (q ⟨0, by decide⟩).val :=
  dot_S256x128_S512x128_S256x512_1_1_0_0_n_n.rhsIdx_val_of_single rfl i q

private theorem d2_lhs_0 (i : S256x128.Idx) (q : dot_S256x512_S512x128_S256x128_1_0_0_1_n_n.contr.Idx) :
    (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
private theorem d2_lhs_1 (i : S256x128.Idx) (q : dot_S256x512_S512x128_S256x128_1_0_0_1_n_n.contr.Idx) :
    (dot_S256x512_S512x128_S256x128_1_0_0_1_n_n.lhsIdx i q 1).val = (q ⟨0, by decide⟩).val :=
  dot_S256x512_S512x128_S256x128_1_0_0_1_n_n.lhsIdx_val_of_single rfl i q
private theorem d2_rhs_0 (i : S256x128.Idx) (q : dot_S256x512_S512x128_S256x128_1_0_0_1_n_n.contr.Idx) :
    (dot_S256x512_S512x128_S256x128_1_0_0_1_n_n.rhsIdx i q 0).val = (q ⟨0, by decide⟩).val :=
  dot_S256x512_S512x128_S256x128_1_0_0_1_n_n.rhsIdx_val_of_single rfl i q
private theorem d2_rhs_1 (i : S256x128.Idx) (q : dot_S256x512_S512x128_S256x128_1_0_0_1_n_n.contr.Idx) :
    (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-- The first product into zero, read at `(l, k)`: the inner product of query row `l` and key row `k`. -/
private theorem logits_apply (cf : FVec Ideal S256x128 .bf16) (kf : FVec Ideal S512x128 .bf16) (l : Fin 256) (k : Fin 512) :
    matmul dot_S256x128_S512x128_S256x512_1_1_0_0_n_n none cf kf (constant (F := Ideal) S256x512 .f32 0x00000000#32) (ix2 l k)
      = ∑ d : Fin 128, cf (ix2 l d) * kf (ix2 k d) := by
  show FloatOps.matmul dot_S256x128_S512x128_S256x512_1_1_0_0_n_n none cf kf (constant (F := Ideal) S256x512 .f32 0x00000000#32) (ix2 l k) = _
  rw [Ideal.matmul_constant_zero_apply, ← Equiv.sum_comp (contrEquiv1 dot_S256x128_S512x128_S256x512_1_1_0_0_n_n 128 rfl rfl).symm]
  refine Finset.sum_congr rfl fun d _ => ?_
  have hd := contrEquiv1_symm_val dot_S256x128_S512x128_S256x512_1_1_0_0_n_n 128 rfl rfl d
  have el : dot_S256x128_S512x128_S256x512_1_1_0_0_n_n.lhsIdx (ix2 l k) ((contrEquiv1 dot_S256x128_S512x128_S256x512_1_1_0_0_n_n 128 rfl rfl).symm d) = ix2 l d := funext fun a => Fin.ext (by
    match a with
    | ⟨0, _⟩ => exact d1_lhs_0 _ _
    | ⟨1, _⟩ => exact (d1_lhs_1 _ _).trans hd)
  have er : dot_S256x128_S512x128_S256x512_1_1_0_0_n_n.rhsIdx (ix2 l k) ((contrEquiv1 dot_S256x128_S512x128_S256x512_1_1_0_0_n_n 128 rfl rfl).symm d) = ix2 k d := funext fun a => Fin.ext (by
    match a with
    | ⟨0, _⟩ => exact d1_rhs_0 _ _
    | ⟨1, _⟩ => exact (d1_rhs_1 _ _).trans hd)
  rw [el, er]

/-- The second product into zero, read at `(l, d)`: the sum over the 512 keys of weight times key entry. -/
private theorem mix_apply (pb : FVec Ideal S256x512 .bf16) (kf : FVec Ideal S512x128 .bf16) (l : Fin 256) (d : Fin 128) :
    matmul dot_S256x512_S512x128_S256x128_1_0_0_1_n_n none pb kf (constant (F := Ideal) S256x128 .f32 0x00000000#32) (ix2 l d)
      = ∑ k : Fin 512, pb (ix2 l k) * kf (ix2 k d) := by
  show FloatOps.matmul dot_S256x512_S512x128_S256x128_1_0_0_1_n_n none pb kf (constant (F := Ideal) S256x128 .f32 0x00000000#32) (ix2 l d) = _
  rw [Ideal.matmul_constant_zero_apply, ← Equiv.sum_comp (contrEquiv1 dot_S256x512_S512x128_S256x128_1_0_0_1_n_n 512 rfl rfl).symm]
  refine Finset.sum_congr rfl fun k _ => ?_
  have hk := contrEquiv1_symm_val dot_S256x512_S512x128_S256x128_1_0_0_1_n_n 512 rfl rfl k
  have el : dot_S256x512_S512x128_S256x128_1_0_0_1_n_n.lhsIdx (ix2 l d) ((contrEquiv1 dot_S256x512_S512x128_S256x128_1_0_0_1_n_n 512 rfl rfl).symm k) = ix2 l k := funext fun a => Fin.ext (by
    match a with
    | ⟨0, _⟩ => exact d2_lhs_0 _ _
    | ⟨1, _⟩ => exact (d2_lhs_1 _ _).trans hk)
  have er : dot_S256x512_S512x128_S256x128_1_0_0_1_n_n.rhsIdx (ix2 l d) ((contrEquiv1 dot_S256x512_S512x128_S256x128_1_0_0_1_n_n 512 rfl rfl).symm k) = ix2 k d := funext fun a => Fin.ext (by
    match a with
    | ⟨0, _⟩ => exact (d2_rhs_0 _ _).trans hk
    | ⟨1, _⟩ => exact d2_rhs_1 _ _)
  rw [el, er]

/-! ## The two row reductions read at a row -/

/-- The row maximum from −∞ of a 256 × 512 block, read at row `l`. -/
private theorem rowmax_apply (s : FVec Ideal S256x512 .f32) (l : Fin 256) :
    multiReduction .maximumf [1] S256 s 0xFF800000#32 reduces_S256x512_S256 (.inl rfl) rfl (ix1 l)
      = rowMax (fun k => s (ix2 l k)) := by
  refine (Ideal.multiReduction_maximumf_single s 0xFF800000#32 reduces_S256x512_S256 (.inl rfl) rfl (ix1 l)).trans ?_
  show (Finset.univ : Finset (Fin 512)).fold max (Ideal.ofBits .f32 0xFF800000#32) (fun k : Fin 512 => s (reduces_S256x512_S256.lift (ix1 l) k)) = _
  unfold rowMax
  congr 1
  funext k
  exact congrArg s (funext fun a => Fin.ext (by match a with | ⟨0, _⟩ => rfl | ⟨1, _⟩ => rfl))

/-- The row sum from zero of a 256 × 512 block, read at row `l`. -/
private theorem rowsum_apply (e : FVec Ideal S256x512 .f32) (l : Fin 256) :
    multiReduction .add [1] S256 e 0x00000000#32 reduces_S256x512_S256 (.inl rfl) rfl (ix1 l)
      = ∑ k : Fin 512, e (ix2 l k) := by
  refine (Ideal.multiReduction_add_single e 0x00000000#32 reduces_S256x512_S256 (.inl rfl) rfl (ix1 l)).trans ?_
  show ∑ k : Fin 512, e (reduces_S256x512_S256.lift (ix1 l) k) = _
  refine Finset.sum_congr rfl fun k _ => ?_
  exact congrArg e (funext fun a => Fin.ext (by match a with | ⟨0, _⟩ => rfl | ⟨1, _⟩ => rfl))

/-! ## The softmax of a block of logits, read at an entry -/

/-- The shifted exponentials of a block of logits: each entry minus its row's maximum, exponentiated. -/
private theorem shifted_apply (s : FVec Ideal S256x512 .f32) (l : Fin 256) (k : Fin 512) :
    exp (subf s (broadcastTo S256x512 (shapeCast S256x1
        (multiReduction .maximumf [1] S256 s 0xFF800000#32 reduces_S256x512_S256 (.inl rfl) rfl) shapeCasts_S256_S256x1)
        broadcasts_S256x1_S256x512)) (ix2 l k)
      = expShift (fun k => s (ix2 l k)) k := by
  show Ideal.exp (s (ix2 l k) - broadcastTo S256x512 (shapeCast S256x1
        (multiReduction .maximumf [1] S256 s 0xFF800000#32 reduces_S256x512_S256 (.inl rfl) rfl) shapeCasts_S256_S256x1)
        broadcasts_S256x1_S256x512 (ix2 l k)) = _
  rw [broadcastTo_a1_ab_apply, shapeCast_a_a1_apply, rowmax_apply]
  rfl

/-- The softmax weights of a block of logits as the body computes them (the quotient by the row sum of the shifted
    exponentials, narrowed to bf16, which changes nothing at the ideal values), read at `(l, k)`. -/
private theorem weights_apply (s : FVec Ideal S256x512 .f32) (l : Fin 256) (k : Fin 512) :
    truncf .bf16 (divf
        (exp (subf s (broadcastTo S256x512 (shapeCast S256x1
          (multiReduction .maximumf [1] S256 s 0xFF800000#32 reduces_S256x512_S256 (.inl rfl) rfl) shapeCasts_S256_S256x1)
          broadcasts_S256x1_S256x512)))
        (broadcastTo S256x512 (shapeCast S256x1
          (multiReduction .add [1] S256
            (exp (subf s (broadcastTo S256x512 (shapeCast S256x1
              (multiReduction .maximumf [1] S256 s 0xFF800000#32 reduces_S256x512_S256 (.inl rfl) rfl) shapeCasts_S256_S256x1)
              broadcasts_S256x1_S256x512)))
            0x00000000#32 reduces_S256x512_S256 (.inl rfl) rfl) shapeCasts_S256_S256x1)
          broadcasts_S256x1_S256x512)) bitsLt_bf16_f32 (ix2 l k)
      = weight (fun k => s (ix2 l k)) k := by
  show Ideal.div
      (exp (subf s (broadcastTo S256x512 (shapeCast S256x1
          (multiReduction .maximumf [1] S256 s 0xFF800000#32 reduces_S256x512_S256 (.inl rfl) rfl) shapeCasts_S256_S256x1)
          broadcasts_S256x1_S256x512)) (ix2 l k))
      (broadcastTo S256x512 (shapeCast S256x1
          (multiReduction .add [1] S256
            (exp (subf s (broadcastTo S256x512 (shapeCast S256x1
              (multiReduction .maximumf [1] S256 s 0xFF800000#32 reduces_S256x512_S256 (.inl rfl) rfl) shapeCasts_S256_S256x1)
              broadcasts_S256x1_S256x512)))
            0x00000000#32 reduces_S256x512_S256 (.inl rfl) rfl) shapeCasts_S256_S256x1)
          broadcasts_S256x1_S256x512 (ix2 l k)) = _
  rw [broadcastTo_a1_ab_apply, shapeCast_a_a1_apply, rowsum_apply]
  unfold weight
  exact congrArg₂ Ideal.div (shifted_apply s l k) (Finset.sum_congr rfl fun k' _ => shifted_apply s l k')

/-- One hop of the body on a query block and a key block. -/
def hop (cf : FVec F S256x128 .bf16) (kf : FVec F S512x128 .bf16) : FVec F S256x128 .f32 :=
  have z0 : FVec F S256x512 .f32 := constant S256x512 .f32 0x00000000#32
  have s : FVec F S256x512 .f32 := matmul dot_S256x128_S512x128_S256x512_1_1_0_0_n_n none cf kf z0
  have mx : FVec F S256 .f32 := multiReduction .maximumf [1] S256 s 0xFF800000#32 reduces_S256x512_S256 (.inl rfl) rfl
  have mx1 : FVec F S256x1 .f32 := shapeCast S256x1 mx shapeCasts_S256_S256x1
  have mxb : FVec F S256x512 .f32 := broadcastTo S256x512 mx1 broadcasts_S256x1_S256x512
  have sh : FVec F S256x512 .f32 := subf s mxb
  have e : FVec F S256x512 .f32 := exp sh
  have se : FVec F S256 .f32 := multiReduction .add [1] S256 e 0x00000000#32 reduces_S256x512_S256 (.inl rfl) rfl
  have se1 : FVec F S256x1 .f32 := shapeCast S256x1 se shapeCasts_S256_S256x1
  have seb : FVec F S256x512 .f32 := broadcastTo S256x512 se1 broadcasts_S256x1_S256x512
  have p : FVec F S256x512 .f32 := divf e seb
  have pb : FVec F S256x512 .bf16 := truncf .bf16 p bitsLt_bf16_f32
  have z1 : FVec F S256x128 .f32 := constant S256x128 .f32 0x00000000#32
  matmul dot_S256x512_S512x128_S256x128_1_0_0_1_n_n none pb kf z1

/-- The first payload: zero plus hop 0. -/
theorem pay2_eq (v1 : Vec F S1x1x256x128 .bf16) (v3 : Vec F S1x1x512x128 .bf16) :
    k0_pay2 v1 v3 = addf (broadcast S256x128 (Scalar.ofBits .f32 0x00000000#32))
      (hop (shapeCast S256x128 v1 shapeCasts_S1x1x256x128_S256x128) (shapeCast S512x128 v3 shapeCasts_S1x1x512x128_S512x128)) := rfl

/-- The second payload: hop 1. -/
theorem pay3_eq (v18 : Vec F S1x1x256x128 .bf16) (v20 : Vec F S1x1x512x128 .bf16) :
    k0_pay3 v18 v20 = hop (shapeCast S256x128 v18 shapeCasts_S1x1x256x128_S256x128) (shapeCast S512x128 v20 shapeCasts_S1x1x512x128_S512x128) := rfl

/-- The stored payload: the two earlier sums plus hop 2, as a [1, 256, 128] block. -/
theorem pay1_eq (v17 v33 : FVec F S256x128 .f32) (v35 : Vec F S1x1x256x128 .bf16) (v37 : Vec F S1x1x512x128 .bf16) :
    k0_pay1 v17 v33 v35 v37 = shapeCast S1x256x128 (addf (addf v17 v33)
      (hop (shapeCast S256x128 v35 shapeCasts_S1x1x256x128_S256x128) (shapeCast S512x128 v37 shapeCasts_S1x1x512x128_S512x128)))
      shapeCasts_S256x128_S1x256x128 := rfl

/-- One hop read at an entry: the softmax readout of the blocks' entries. -/
theorem hop_apply (cf : FVec Ideal S256x128 .bf16) (kf : FVec Ideal S512x128 .bf16) (l : Fin 256) (d : Fin 128) :
    hop (F := Ideal) cf kf (ix2 l d) = readout (fun l d => cf (ix2 l d)) (fun k d => kf (ix2 k d)) l d := by
  unfold hop
  refine (mix_apply _ kf l d).trans ?_
  unfold readout
  refine Finset.sum_congr rfl fun k _ => ?_
  refine congrArg (· * kf (ix2 k d)) ?_
  refine (weights_apply _ l k).trans ?_
  exact congrArg (fun a => weight a k) (funext fun k' => logits_apply cf kf l k')

/-- The stored payload read at an entry of the output block: the three hops' readouts of the six loaded
    slices, added from zero in the body's order. -/
theorem payload_apply (a0 a1 a2 : Vec Ideal S1x1x256x128 .bf16) (b0 b1 b2 : Vec Ideal S1x1x512x128 .bf16)
    (l : Fin 256) (d : Fin 128) :
    k0_pay1 (F := Ideal) (k0_pay2 a0 b0) (k0_pay3 a1 b1) a2 b2 (ix3 (0 : Fin 1) l d)
      = total (readout (fun l d => a0 (ix4 (0 : Fin 1) (0 : Fin 1) l d)) (fun k d => b0 (ix4 (0 : Fin 1) (0 : Fin 1) k d)) l d)
          (readout (fun l d => a1 (ix4 (0 : Fin 1) (0 : Fin 1) l d)) (fun k d => b1 (ix4 (0 : Fin 1) (0 : Fin 1) k d)) l d)
          (readout (fun l d => a2 (ix4 (0 : Fin 1) (0 : Fin 1) l d)) (fun k d => b2 (ix4 (0 : Fin 1) (0 : Fin 1) k d)) l d) := by
  have ea (a : Vec Ideal S1x1x256x128 .bf16) :
      (fun (l : Fin 256) (d : Fin 128) => (shapeCast S256x128 a shapeCasts_S1x1x256x128_S256x128 : FVec Ideal S256x128 .bf16) (ix2 l d))
        = fun l d => a (ix4 (0 : Fin 1) (0 : Fin 1) l d) :=
    funext fun l => funext fun d => shapeCast_11ab_ab_apply a shapeCasts_S1x1x256x128_S256x128 l d
  have eb (b : Vec Ideal S1x1x512x128 .bf16) :
      (fun (k : Fin 512) (d : Fin 128) => (shapeCast S512x128 b shapeCasts_S1x1x512x128_S512x128 : FVec Ideal S512x128 .bf16) (ix2 k d))
        = fun k d => b (ix4 (0 : Fin 1) (0 : Fin 1) k d) :=
    funext fun k => funext fun d => shapeCast_11ab_ab_apply b shapeCasts_S1x1x512x128_S512x128 k d
  refine (congrFun (pay1_eq (F := Ideal) (k0_pay2 a0 b0) (k0_pay3 a1 b1) a2 b2) (ix3 (0 : Fin 1) l d)).trans ?_
  refine (shapeCast_ab_1ab_apply _ shapeCasts_S256x128_S1x256x128 (0 : Fin 1) l d).trans ?_
  rw [pay2_eq, pay3_eq]
  show ((Ideal.ofBits .f32 0x00000000#32
        + hop (F := Ideal) (shapeCast S256x128 a0 shapeCasts_S1x1x256x128_S256x128) (shapeCast S512x128 b0 shapeCasts_S1x1x512x128_S512x128) (ix2 l d))
      + hop (F := Ideal) (shapeCast S256x128 a1 shapeCasts_S1x1x256x128_S256x128) (shapeCast S512x128 b1 shapeCasts_S1x1x512x128_S512x128) (ix2 l d))
      + hop (F := Ideal) (shapeCast S256x128 a2 shapeCasts_S1x1x256x128_S256x128) (shapeCast S512x128 b2 shapeCasts_S1x1x512x128_S512x128) (ix2 l d) = _
  rw [hop_apply, hop_apply, hop_apply, Ideal.ofBits_zero_f32, ea a0, ea a1, ea a2, eb b0, eb b1, eb b2]
  rfl

end Cert.KernelIdeal.Hop

end
-- ==== Proof.KernelValue.lean ====
/-
  The kernel program's result is the specification. Grid point `t` writes back, at (0, l, d), the three
  hops' softmax readouts of batch item `t`'s bags added up, which is `Attention.out` at (t, l, d); the
  sixteen blocks tile the output array [16, 256, 128], so it ends at that function entry by entry; the
  transpose after the call swaps the batch and query-row axes, which gives `Attention.G`.
-/
import proofs.«426875_j21844203668322_3_alg».proof.Proof.KernelBlocks
import proofs.«426875_j21844203668322_3_alg».proof.Proof.KernelHop
import proofs.«426875_j21844203668322_3_alg».proof.Proof.Attention
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Cert.KernelIdeal.Blocks Idealize.ShloMosaic Idealize.ShloMosaic.TcCoe Idealize.SL.Sem
open Idealize.ShloMosaic.ValueIdx Idealize.ShloMosaic.StableHlo Cert.Attention
open Idealize.ShloMosaic.Pipeline (Dat)

variable (m : (ℓ : Loc nD τ sig) → Buf (Elt Ideal) ℓ) (ρ : Dev nD → PrngReg)

/-! ## The argument arrays by name -/

abbrev A0 (c : Dev nD) : IVec S16x256x8 32 := m ((c : Thread nD τ).loc main_arg0)
abbrev A1 (c : Dev nD) : IVec S16x512x8 32 := m ((c : Thread nD τ).loc main_arg1)
abbrev A2 (c : Dev nD) : FVec Ideal S3x50000x128 .f32 := m ((c : Thread nD τ).loc main_arg2)
abbrev A3 (c : Dev nD) : FVec Ideal S3x50000x128 .f32 := m ((c : Thread nD τ).loc main_arg3)

/-- The output array [16, 256, 128] as one function of the argument arrays: entry (b, l, d) is `Attention.out`. -/
def blockFn (a0 : IVec S16x256x8 32) (a1 : IVec S16x512x8 32) (a2 a3 : FVec Ideal S3x50000x128 .f32) :
    FVec Ideal S16x256x128 .f32 :=
  fun i => out (fun b l q => a0 (ix3 b l q)) (fun b k q => a1 (ix3 b k q)) (fun h r d => a2 (ix3 h r d))
    (fun h r d => a3 (ix3 h r d)) (i 0) (i 1) (i 2)

/-! ## One row of a staged block is an embedding bag -/

/-- Row (h, l) of point `t`'s query block: the bag of batch item `t`'s span (l) in hop `h`'s first table. -/
theorem qrow (c : Dev nD) (t : Fin cfg0.N) (hin : ∀ i, (A0 m c i).toNat < 50000) (h : Fin 3) (l : Fin 256) (d : Fin 128) :
    qblk m c t (ix4 (0 : Fin 1) h l d) = bag (fun r d => A2 m c (ix3 h r d)) (fun q => A0 m c (ix3 (item t) l q)) d := by
  rw [qblk_apply, qarr_eq]
  exact Bag.bagQ_apply (A2 m c) (A0 m c) hin (item t) h l d

/-- Row (h, k) of point `t`'s key block: the bag of batch item `t`'s span (k) in hop `h`'s second table. -/
theorem krow (c : Dev nD) (t : Fin cfg0.N) (hin : ∀ i, (A1 m c i).toNat < 50000) (h : Fin 3) (k : Fin 512) (d : Fin 128) :
    kblk m c t (ix4 (0 : Fin 1) h k d) = bag (fun r d => A3 m c (ix3 h r d)) (fun q => A1 m c (ix3 (item t) k q)) d := by
  rw [kblk_apply, karr_eq]
  exact Bag.bagK_apply (A3 m c) (A1 m c) hin (item t) h k d

/-- The body's load of hop `h`'s slice of a query block reads the block at (0, h, ·, ·). -/
theorem ld_q (x : Vec Ideal S1x3x256x128 .bf16) (l : Fin 256) (d : Fin 128) :
    View.ld x r0_0 (ix4 (0 : Fin 1) (0 : Fin 1) l d) = x (ix4 (0 : Fin 1) (0 : Fin 3) l d)
    ∧ View.ld x r0_2 (ix4 (0 : Fin 1) (0 : Fin 1) l d) = x (ix4 (0 : Fin 1) (1 : Fin 3) l d)
    ∧ View.ld x r0_4 (ix4 (0 : Fin 1) (0 : Fin 1) l d) = x (ix4 (0 : Fin 1) (2 : Fin 3) l d) := by
  refine ⟨?_, ?_, ?_⟩ <;>
  · refine congrArg x (funext fun a => Fin.ext ?_)
    match a with
    | ⟨0, _⟩ => rfl
    | ⟨1, _⟩ => rfl
    | ⟨2, _⟩ => show 0 + 1 * l.val = l.val; omega
    | ⟨3, _⟩ => show 0 + 1 * d.val = d.val; omega

/-- The body's load of hop `h`'s slice of a key block reads the block at (0, h, ·, ·). -/
theorem ld_k (x : Vec Ideal S1x3x512x128 .bf16) (k : Fin 512) (d : Fin 128) :
    View.ld x r0_1 (ix4 (0 : Fin 1) (0 : Fin 1) k d) = x (ix4 (0 : Fin 1) (0 : Fin 3) k d)
    ∧ View.ld x r0_3 (ix4 (0 : Fin 1) (0 : Fin 1) k d) = x (ix4 (0 : Fin 1) (1 : Fin 3) k d)
    ∧ View.ld x r0_5 (ix4 (0 : Fin 1) (0 : Fin 1) k d) = x (ix4 (0 : Fin 1) (2 : Fin 3) k d) := by
  refine ⟨?_, ?_, ?_⟩ <;>
  · refine congrArg x (funext fun a => Fin.ext ?_)
    match a with
    | ⟨0, _⟩ => rfl
    | ⟨1, _⟩ => rfl
    | ⟨2, _⟩ => show 0 + 1 * k.val = k.val; omega
    | ⟨3, _⟩ => show 0 + 1 * d.val = d.val; omega

/-! ## What a point writes back -/

/-- The stored payload of point `t` at (·, l, d): the specification's entry (t, l, d). -/
theorem point_apply (c : Dev nD) (t : Fin cfg0.N) (hin0 : ∀ i, (A0 m c i).toNat < 50000) (hin1 : ∀ i, (A1 m c i).toNat < 50000)
    (y : S1x256x128.Idx) :
    k0_pay1 (F := Ideal) (k0_pay2 (View.ld (qblk m c t) r0_0) (View.ld (kblk m c t) r0_1))
        (k0_pay3 (View.ld (qblk m c t) r0_2) (View.ld (kblk m c t) r0_3)) (View.ld (qblk m c t) r0_4) (View.ld (kblk m c t) r0_5) y
      = blockFn (A0 m c) (A1 m c) (A2 m c) (A3 m c) (ix3 (item t) (y 1) (y 2)) := by
  obtain ⟨a, l, d, rfl⟩ : ∃ (a : Fin 1) (l : Fin 256) (d : Fin 128), y = ix3 a l d := ⟨y 0, y 1, y 2, eq_ix3 y⟩
  obtain rfl : a = 0 := Subsingleton.elim _ _
  refine (Hop.payload_apply (View.ld (qblk m c t) r0_0) (View.ld (qblk m c t) r0_2) (View.ld (qblk m c t) r0_4)
    (View.ld (kblk m c t) r0_1) (View.ld (kblk m c t) r0_3) (View.ld (kblk m c t) r0_5) l d).trans ?_
  have q0 : (fun (l : Fin 256) (d : Fin 128) => View.ld (qblk m c t) r0_0 (ix4 (0 : Fin 1) (0 : Fin 1) l d))
      = fun l d => bag (fun r d => A2 m c (ix3 (0 : Fin 3) r d)) (fun q => A0 m c (ix3 (item t) l q)) d :=
    funext fun l => funext fun d => ((ld_q (qblk m c t) l d).1).trans (qrow m c t hin0 0 l d)
  have q1 : (fun (l : Fin 256) (d : Fin 128) => View.ld (qblk m c t) r0_2 (ix4 (0 : Fin 1) (0 : Fin 1) l d))
      = fun l d => bag (fun r d => A2 m c (ix3 (1 : Fin 3) r d)) (fun q => A0 m c (ix3 (item t) l q)) d :=
    funext fun l => funext fun d => ((ld_q (qblk m c t) l d).2.1).trans (qrow m c t hin0 1 l d)
  have q2 : (fun (l : Fin 256) (d : Fin 128) => View.ld (qblk m c t) r0_4 (ix4 (0 : Fin 1) (0 : Fin 1) l d))
      = fun l d => bag (fun r d => A2 m c (ix3 (2 : Fin 3) r d)) (fun q => A0 m c (ix3 (item t) l q)) d :=
    funext fun l => funext fun d => ((ld_q (qblk m c t) l d).2.2).trans (qrow m c t hin0 2 l d)
  have k0 : (fun (k : Fin 512) (d : Fin 128) => View.ld (kblk m c t) r0_1 (ix4 (0 : Fin 1) (0 : Fin 1) k d))
      = fun k d => bag (fun r d => A3 m c (ix3 (0 : Fin 3) r d)) (fun q => A1 m c (ix3 (item t) k q)) d :=
    funext fun k => funext fun d => ((ld_k (kblk m c t) k d).1).trans (krow m c t hin1 0 k d)
  have k1 : (fun (k : Fin 512) (d : Fin 128) => View.ld (kblk m c t) r0_3 (ix4 (0 : Fin 1) (0 : Fin 1) k d))
      = fun k d => bag (fun r d => A3 m c (ix3 (1 : Fin 3) r d)) (fun q => A1 m c (ix3 (item t) k q)) d :=
    funext fun k => funext fun d => ((ld_k (kblk m c t) k d).2.1).trans (krow m c t hin1 1 k d)
  have k2 : (fun (k : Fin 512) (d : Fin 128) => View.ld (kblk m c t) r0_5 (ix4 (0 : Fin 1) (0 : Fin 1) k d))
      = fun k d => bag (fun r d => A3 m c (ix3 (2 : Fin 3) r d)) (fun q => A1 m c (ix3 (item t) k q)) d :=
    funext fun k => funext fun d => ((ld_k (kblk m c t) k d).2.2).trans (krow m c t hin1 2 k d)
  rw [q0, q1, q2, k0, k1, k2]
  rfl

theorem hz3 : (![0, 0, 0] : Fin 3 → Nat) = fun _ => 0 := funext fun a => by fin_cases a <;> rfl

/-- WHAT POINT `t` WRITES BACK is block `t` of the specification of the output array. -/
theorem flushed_eq (c : Dev nD) (t : Fin cfg0.N) (hin0 : ∀ i, (A0 m c i).toNat < 50000) (hin1 : ∀ i, (A1 m c i).toNat < 50000) :
    (dats m 0 c).flushed 2 t = ((cfg0.win 2).blk t).view.read (Elt Ideal) (blockFn (A0 m c) (A1 m c) (A2 m c) (A3 m c)) := by
  show (cfg0.win 2).cut (grid0.coords t) ((dats m 0 c).after 2 t) = _
  rw [after0_2]
  unfold out0_2
  rw [View.canon_unit_zero hz3]
  obtain ⟨-, -, -, -, -, -, -, -, e0, e1, e2⟩ := idx_facts t
  funext j
  refine (point_apply m c t hin0 hin1 j).trans ?_
  show blockFn (A0 m c) (A1 m c) (A2 m c) (A3 m c) (ix3 (item t) (j 1) (j 2))
    = blockFn (A0 m c) (A1 m c) (A2 m c) (A3 m c) (((cfg0.win 2).blk t).view.emb j)
  refine congrArg (blockFn (A0 m c) (A1 m c) (A2 m c) (A3 m c)) (funext fun a => Fin.ext ?_)
  match a with
  | ⟨0, _⟩ => show t.val = win0_2.index t (0 : Fin 3) * 1 + 1 * (j 0).val; have hj : (j 0).val < 1 := (j 0).isLt; omega
  | ⟨1, _⟩ => show (j 1).val = win0_2.index t (1 : Fin 3) * 256 + 1 * (j 1).val; omega
  | ⟨2, _⟩ => show (j 2).val = win0_2.index t (2 : Fin 3) * 128 + 1 * (j 2).val; omega

/-- An index of the output array is in point `t`'s block iff each coordinate is in the block's range on its axis. -/
theorem mem_blk (t : Fin cfg0.N) (i : S16x256x128.Idx) :
    i ∈ ((cfg0.win 2).blk t).view.set ↔ ∀ a : Fin 3, win0_2.index t a * S1x256x128.size a ≤ (i a).val ∧ (i a).val < win0_2.index t a * S1x256x128.size a + S1x256x128.size a := by
  show i ∈ ((View.whole main_v25).slice (win0_2.rect t)).set ↔ _
  rw [View.set_slice_whole, Rect.mem_set_unit]
  exact Iff.rfl

/-- The sixteen blocks tile the output array: entry (b, l, d) lies in point `b`'s block. -/
theorem cover (i : S16x256x128.Idx) :
    ∃ t : Fin cfg0.N, (cfg0.win 2).flush t = true ∧ i ∈ ((cfg0.win 2).blk t).view.set := by
  have hi0 : (i 0).val < 16 := (i 0).isLt
  have hi1 : (i 1).val < 256 := (i 1).isLt
  have hi2 : (i 2).val < 128 := (i 2).isLt
  have hN : cfg0.N = 16 := N_0
  let t : Fin cfg0.N := ⟨(i 0).val, by omega⟩
  obtain ⟨-, -, -, -, -, -, -, -, e0, e1, e2⟩ := idx_facts t
  have et : t.val = (i 0).val := rfl
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 128 ≤ (i 2).val ∧ (i 2).val < win0_2.index t (2 : Fin 3) * 128 + 128; omega

/-- THE OUTPUT ARRAY after the run is the specification. -/
theorem final (c : Dev nD) (hin0 : ∀ i, (A0 m c i).toNat < 50000) (hin1 : ∀ i, (A1 m c i).toNat < 50000) :
    (dats m 0 c).arrAt 2 cfg0.N = blockFn (A0 m c) (A1 m c) (A2 m c) (A3 m c) :=
  (dats m 0 c).arrAt_eq_of_cover 2 (blockFn (A0 m c) (A1 m c) (A2 m c) (A3 m c)) (fun t _ => flushed_eq m c t hin0 hin1) cover

/-! ## The transpose after the call, and the run -/

/-- The transpose of the output array's specification is the result's: entry (l, b, d) reads (b, l, d). -/
theorem transpose_blockFn (a0 : IVec S16x256x8 32) (a1 : IVec S16x512x8 32) (a2 a3 : FVec Ideal S3x50000x128 .f32) :
    transpose S256x16x128 [1, 0, 2] (blockFn a0 a1 a2 a3) transposes_S16x256x128_S256x16x128_1_0_2 = G a0 a1 a2 a3 := by
  funext i
  refine (transpose_apply [1, 0, 2] (blockFn a0 a1 a2 a3) transposes_S16x256x128_S256x16x128_1_0_2 i
    (ix3 (i 1) (i 0) (i 2)) (fun b => match b with
      | ⟨0, _⟩ => rfl
      | ⟨1, _⟩ => rfl
      | ⟨2, _⟩ => rfl)).trans ?_
  rfl

/-- What the lines after the call leave in the result buffer: the transpose of the output array after the run. -/
theorem tail_eq (c : Dev nD) (hin0 : ∀ i, (A0 m c i).toNat < 50000) (hin1 : ∀ i, (A1 m c i).toNat < 50000) :
    Pipeline.afterTail₀ cfgs (dats m) 0 (V0 m) [hostOps1] c main_v26 = G (A0 m c) (A1 m c) (A2 m c) (A3 m c) := by
  unfold Pipeline.afterTail₀
  show StableHlo.after hostOps1 _ (Proc.devRef .tc main_v26) = _
  after_results
  rw [Pipeline.withArrays_arr spec0 launch0.win.arr_inj c _ _ 2, final m c hin0 hin1]
  exact transpose_blockFn (A0 m c) (A1 m c) (A2 m c) (A3 m c)

/-- THE RUN: every weakly fair execution of the kernel program ends with the result buffer at the
    specification and the argument arrays as launched, when every token is below 50000. -/
theorem run (hin0 : ∀ c i, (A0 m c i).toNat < 50000) (hin1 : ∀ c i, (A1 m c i).toNat < 50000) :
    θ_run (defs (F := Ideal)) (onTc (τ := τ) (main (F := Ideal))) ⟨m, fun _ => 0, ρ⟩ (fun r => ∀ c : Dev nD,
      r.2.mem ((c.tc : Thread nD τ).loc main_v26) = G (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v26 (Pipeline.mem_restRefs_of main_v26 (by decide) (by decide))).trans (tail_eq m c (hin0 c) (hin1 c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefHop.lean ====
/-
  One hop of the reference as a function of the query rows [16, 256, 128] and the key rows
  [16, 512, 128]: the batched inner products, the softmax along the key axis (maximum folded from −∞
  and taken once more against −∞, shifted exponentials, their sum, the quotient), and the batched
  product with the key rows. Read at an entry it is `Attention.readout` of batch item `b`'s rows.
-/
import proofs.«426875_j21844203668322_3_alg».proof.ReferenceIdeal
import proofs.«426875_j21844203668322_3_alg».proof.Proof.Gen.ReferenceIdeal
import proofs.«426875_j21844203668322_3_alg».proof.Proof.Attention
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.Hop

open Idealize.ShloMosaic Idealize.ShloMosaic.ValueIdx Cert.ReferenceIdeal Cert.ReferenceIdeal.Gen Cert.Attention

variable {F : FTy → Type} [FloatOps F]

/-- One hop of the reference on all sixteen batch items. -/
def hop (cf : FVec F S16x256x128 .f32) (kf : FVec F S16x512x128 .f32) : FVec F S16x256x128 .f32 :=
  have s : FVec F S16x256x512 .f32 := Host.dotGeneral dot_S16x256x128_S16x512x128_S16x256x512_2_2_1_1_0_0 none cf kf
  have mx : FVec F S16x256 .f32 := Host.reduce FloatOps.maximumf s (constant S_ .f32 0xFF800000#32) reducesTo_S16x256x512_S16x256_d2 h_S_
  have mx' : FVec F S16x256 .f32 := maximumf (broadcastInDim S16x256 ![] bcast_S_S16x256 (constant S_ .f32 0xFF800000#32)) mx
  have mxb : FVec F S16x256x512 .f32 := broadcastInDim S16x256x512 ![0, 1, 2] bcast_S16x256x1_S16x256x512_0_1_2
    (broadcastInDim S16x256x1 ![0, 1] bcast_S16x256_S16x256x1_0_1 mx')
  have e : FVec F S16x256x512 .f32 := Host.exp (subf s mxb)
  have se : FVec F S16x256 .f32 := Host.reduceAdd e (constant S_ .f32 0x00000000#32) reducesTo_S16x256x512_S16x256_d2 h_S_
  have seb : FVec F S16x256x512 .f32 := broadcastInDim S16x256x512 ![0, 1, 2] bcast_S16x256x1_S16x256x512_0_1_2
    (broadcastInDim S16x256x1 ![0, 1] bcast_S16x256_S16x256x1_0_1 se)
  have p : FVec F S16x256x512 .f32 := Host.divf e seb
  Host.dotGeneral dot_S16x256x512_S16x512x128_S16x256x128_2_1_1_2_0_0 none p kf

/-! ## The two batched products read at an entry

  Each contracts one axis; its sum over the contraction index is re-indexed through that axis's one
  coordinate, and the operand indices are read off axis by axis: a batch axis and a free axis carry
  the result's coordinate, the contracted axis the summation variable. -/

private theorem qk_lhs0 (i : S16x256x512.Idx) (q : dot_S16x256x128_S16x512x128_S16x256x512_2_2_1_1_0_0.contr.Idx) :
    (dot_S16x256x128_S16x512x128_S16x256x512_2_2_1_1_0_0.lhsIdx i q 0).val = (i 0).val := by
  unfold DotDims.lhsIdx
  rw [dif_pos (show (0 : Fin S16x256x128.rank) ∈ dot_S16x256x128_S16x512x128_S16x256x512_2_2_1_1_0_0.lhsBatch by decide)]
  rfl
private theorem qk_lhs1 (i : S16x256x512.Idx) (q : dot_S16x256x128_S16x512x128_S16x256x512_2_2_1_1_0_0.contr.Idx) :
    (dot_S16x256x128_S16x512x128_S16x256x512_2_2_1_1_0_0.lhsIdx i q 1).val = (i 1).val := by
  unfold DotDims.lhsIdx
  rw [dif_neg (show ¬(1 : Fin S16x256x128.rank) ∈ dot_S16x256x128_S16x512x128_S16x256x512_2_2_1_1_0_0.lhsBatch by decide),
    dif_pos (show (1 : Fin S16x256x128.rank) ∈ dot_S16x256x128_S16x512x128_S16x256x512_2_2_1_1_0_0.lhsNonContracting by decide)]
  rfl
private theorem qk_lhs2 (i : S16x256x512.Idx) (q : dot_S16x256x128_S16x512x128_S16x256x512_2_2_1_1_0_0.contr.Idx) :
    (dot_S16x256x128_S16x512x128_S16x256x512_2_2_1_1_0_0.lhsIdx i q 2).val = (q ⟨0, by decide⟩).val :=
  dot_S16x256x128_S16x512x128_S16x256x512_2_2_1_1_0_0.lhsIdx_val_of_single rfl i q
private theorem qk_rhs0 (i : S16x256x512.Idx) (q : dot_S16x256x128_S16x512x128_S16x256x512_2_2_1_1_0_0.contr.Idx) :
    (dot_S16x256x128_S16x512x128_S16x256x512_2_2_1_1_0_0.rhsIdx i q 0).val = (i 0).val := by
  unfold DotDims.rhsIdx
  rw [dif_pos (show (0 : Fin S16x512x128.rank) ∈ dot_S16x256x128_S16x512x128_S16x256x512_2_2_1_1_0_0.rhsBatch by decide)]
  rfl
private theorem qk_rhs1 (i : S16x256x512.Idx) (q : dot_S16x256x128_S16x512x128_S16x256x512_2_2_1_1_0_0.contr.Idx) :
    (dot_S16x256x128_S16x512x128_S16x256x512_2_2_1_1_0_0.rhsIdx i q 1).val = (i 2).val := by
  unfold DotDims.rhsIdx
  rw [dif_neg (show ¬(1 : Fin S16x512x128.rank) ∈ dot_S16x256x128_S16x512x128_S16x256x512_2_2_1_1_0_0.rhsBatch by decide),
    dif_pos (show (1 : Fin S16x512x128.rank) ∈ dot_S16x256x128_S16x512x128_S16x256x512_2_2_1_1_0_0.rhsNonContracting by decide)]
  rfl
private theorem qk_rhs2 (i : S16x256x512.Idx) (q : dot_S16x256x128_S16x512x128_S16x256x512_2_2_1_1_0_0.contr.Idx) :
    (dot_S16x256x128_S16x512x128_S16x256x512_2_2_1_1_0_0.rhsIdx i q 2).val = (q ⟨0, by decide⟩).val :=
  dot_S16x256x128_S16x512x128_S16x256x512_2_2_1_1_0_0.rhsIdx_val_of_single rfl i q

/-- The logits: entry (b, l, k) of the first product is the inner product of query row (b, l) and key row (b, k). -/
private theorem qk_apply (x : FVec Ideal S16x256x128 .f32) (y : FVec Ideal S16x512x128 .f32)
    (b : Fin 16) (l : Fin 256) (k : Fin 512) :
    Host.dotGeneral (F := Ideal) dot_S16x256x128_S16x512x128_S16x256x512_2_2_1_1_0_0 none x y (ix3 b l k)
      = ∑ d : Fin 128, x (ix3 b l d) * y (ix3 b k d) := by
  simp only [Host.dotGeneral]
  rw [Ideal.dotGeneral_apply, ← Equiv.sum_comp (contrEquiv1 dot_S16x256x128_S16x512x128_S16x256x512_2_2_1_1_0_0 128 rfl rfl).symm]
  refine Finset.sum_congr rfl fun d _ => ?_
  have hd := contrEquiv1_symm_val dot_S16x256x128_S16x512x128_S16x256x512_2_2_1_1_0_0 128 rfl rfl d
  have el : dot_S16x256x128_S16x512x128_S16x256x512_2_2_1_1_0_0.lhsIdx (ix3 b l k) ((contrEquiv1 dot_S16x256x128_S16x512x128_S16x256x512_2_2_1_1_0_0 128 rfl rfl).symm d) = ix3 b l d :=
    funext fun a => Fin.ext (by
      match a with
      | ⟨0, _⟩ => exact qk_lhs0 _ _
      | ⟨1, _⟩ => exact qk_lhs1 _ _
      | ⟨2, _⟩ => exact (qk_lhs2 _ _).trans hd)
  have er : dot_S16x256x128_S16x512x128_S16x256x512_2_2_1_1_0_0.rhsIdx (ix3 b l k) ((contrEquiv1 dot_S16x256x128_S16x512x128_S16x256x512_2_2_1_1_0_0 128 rfl rfl).symm d) = ix3 b k d :=
    funext fun a => Fin.ext (by
      match a with
      | ⟨0, _⟩ => exact qk_rhs0 _ _
      | ⟨1, _⟩ => exact qk_rhs1 _ _
      | ⟨2, _⟩ => exact (qk_rhs2 _ _).trans hd)
  rw [el, er]

private theorem pv_lhs0 (i : S16x256x128.Idx) (q : dot_S16x256x512_S16x512x128_S16x256x128_2_1_1_2_0_0.contr.Idx) :
    (dot_S16x256x512_S16x512x128_S16x256x128_2_1_1_2_0_0.lhsIdx i q 0).val = (i 0).val := by
  unfold DotDims.lhsIdx
  rw [dif_pos (show (0 : Fin S16x256x512.rank) ∈ dot_S16x256x512_S16x512x128_S16x256x128_2_1_1_2_0_0.lhsBatch by decide)]
  rfl
private theorem pv_lhs1 (i : S16x256x128.Idx) (q : dot_S16x256x512_S16x512x128_S16x256x128_2_1_1_2_0_0.contr.Idx) :
    (dot_S16x256x512_S16x512x128_S16x256x128_2_1_1_2_0_0.lhsIdx i q 1).val = (i 1).val := by
  unfold DotDims.lhsIdx
  rw [dif_neg (show ¬(1 : Fin S16x256x512.rank) ∈ dot_S16x256x512_S16x512x128_S16x256x128_2_1_1_2_0_0.lhsBatch by decide),
    dif_pos (show (1 : Fin S16x256x512.rank) ∈ dot_S16x256x512_S16x512x128_S16x256x128_2_1_1_2_0_0.lhsNonContracting by decide)]
  rfl
private theorem pv_lhs2 (i : S16x256x128.Idx) (q : dot_S16x256x512_S16x512x128_S16x256x128_2_1_1_2_0_0.contr.Idx) :
    (dot_S16x256x512_S16x512x128_S16x256x128_2_1_1_2_0_0.lhsIdx i q 2).val = (q ⟨0, by decide⟩).val :=
  dot_S16x256x512_S16x512x128_S16x256x128_2_1_1_2_0_0.lhsIdx_val_of_single rfl i q
private theorem pv_rhs0 (i : S16x256x128.Idx) (q : dot_S16x256x512_S16x512x128_S16x256x128_2_1_1_2_0_0.contr.Idx) :
    (dot_S16x256x512_S16x512x128_S16x256x128_2_1_1_2_0_0.rhsIdx i q 0).val = (i 0).val := by
  unfold DotDims.rhsIdx
  rw [dif_pos (show (0 : Fin S16x512x128.rank) ∈ dot_S16x256x512_S16x512x128_S16x256x128_2_1_1_2_0_0.rhsBatch by decide)]
  rfl
private theorem pv_rhs1 (i : S16x256x128.Idx) (q : dot_S16x256x512_S16x512x128_S16x256x128_2_1_1_2_0_0.contr.Idx) :
    (dot_S16x256x512_S16x512x128_S16x256x128_2_1_1_2_0_0.rhsIdx i q 1).val = (q ⟨0, by decide⟩).val :=
  dot_S16x256x512_S16x512x128_S16x256x128_2_1_1_2_0_0.rhsIdx_val_of_single rfl i q
private theorem pv_rhs2 (i : S16x256x128.Idx) (q : dot_S16x256x512_S16x512x128_S16x256x128_2_1_1_2_0_0.contr.Idx) :
    (dot_S16x256x512_S16x512x128_S16x256x128_2_1_1_2_0_0.rhsIdx i q 2).val = (i 2).val := by
  unfold DotDims.rhsIdx
  rw [dif_neg (show ¬(2 : Fin S16x512x128.rank) ∈ dot_S16x256x512_S16x512x128_S16x256x128_2_1_1_2_0_0.rhsBatch by decide),
    dif_pos (show (2 : Fin S16x512x128.rank) ∈ dot_S16x256x512_S16x512x128_S16x256x128_2_1_1_2_0_0.rhsNonContracting by decide)]
  rfl

/-- The attended value: entry (b, l, d) of the second product is the sum over the keys k of weight (b, l, k) times
    key row (b, k) at feature d. -/
private theorem pv_apply (p : FVec Ideal S16x256x512 .f32) (y : FVec Ideal S16x512x128 .f32)
    (b : Fin 16) (l : Fin 256) (d : Fin 128) :
    Host.dotGeneral (F := Ideal) dot_S16x256x512_S16x512x128_S16x256x128_2_1_1_2_0_0 none p y (ix3 b l d)
      = ∑ k : Fin 512, p (ix3 b l k) * y (ix3 b k d) := by
  simp only [Host.dotGeneral]
  rw [Ideal.dotGeneral_apply, ← Equiv.sum_comp (contrEquiv1 dot_S16x256x512_S16x512x128_S16x256x128_2_1_1_2_0_0 512 rfl rfl).symm]
  refine Finset.sum_congr rfl fun k _ => ?_
  have hk := contrEquiv1_symm_val dot_S16x256x512_S16x512x128_S16x256x128_2_1_1_2_0_0 512 rfl rfl k
  have el : dot_S16x256x512_S16x512x128_S16x256x128_2_1_1_2_0_0.lhsIdx (ix3 b l d) ((contrEquiv1 dot_S16x256x512_S16x512x128_S16x256x128_2_1_1_2_0_0 512 rfl rfl).symm k) = ix3 b l k :=
    funext fun a => Fin.ext (by
      match a with
      | ⟨0, _⟩ => exact pv_lhs0 _ _
      | ⟨1, _⟩ => exact pv_lhs1 _ _
      | ⟨2, _⟩ => exact (pv_lhs2 _ _).trans hk)
  have er : dot_S16x256x512_S16x512x128_S16x256x128_2_1_1_2_0_0.rhsIdx (ix3 b l d) ((contrEquiv1 dot_S16x256x512_S16x512x128_S16x256x128_2_1_1_2_0_0 512 rfl rfl).symm k) = ix3 b k d :=
    funext fun a => Fin.ext (by
      match a with
      | ⟨0, _⟩ => exact pv_rhs0 _ _
      | ⟨1, _⟩ => exact (pv_rhs1 _ _).trans hk
      | ⟨2, _⟩ => exact pv_rhs2 _ _)
  rw [el, er]

/-! ## The two reductions along the key axis, and the broadcasts back -/

/-- The reduced index (b, l) with key coordinate k put back on the last axis is (b, l, k). -/
private theorem lift_ix3 (h : S16x256x512.Reduces [2] S16x256) (b : Fin 16) (l : Fin 256)
    (k : Fin (S16x256x512.size 2)) : h.lift (ix2 b l) k = ix3 b l (⟨k.val, k.isLt⟩ : Fin 512) := by
  funext c; apply Fin.ext
  match c with
  | ⟨0, _⟩ => rfl
  | ⟨1, _⟩ => rfl
  | ⟨2, _⟩ => rfl

private theorem reduces_keys : S16x256x512.Reduces [2] S16x256 := by decide

/-- The pattern the maximum is folded from is −∞: the maximum of it and any number is that number. -/
private theorem max_negInf (y : EReal) : max (Ideal.ofBits .f32 0xFF800000#32) y = y := by
  simp [Ideal.ofBits, Ideal.ieee]

/-- The maximum reduced along the keys from −∞, at (b, l), is the row maximum of the logits of (b, l). -/
private theorem rowMax_apply (s : FVec Ideal S16x256x512 .f32) (b : Fin 16) (l : Fin 256) :
    Host.reduce FloatOps.maximumf s (constant (F := Ideal) S_ .f32 0xFF800000#32) reducesTo_S16x256x512_S16x256_d2 h_S_ (ix2 b l)
      = rowMax (fun k => s (ix3 b l k)) := by
  rw [Host.reduce_eq_fold_single FloatOps.maximumf s _ reducesTo_S16x256x512_S16x256_d2 reduces_keys h_S_]
  unfold rowMax
  have hf : (s ∘ reduces_keys.lift (ix2 b l)) = fun k : Fin 512 => s (ix3 b l k) :=
    funext fun k => congrArg s (lift_ix3 reduces_keys b l k)
  exact congrArg (fun f => Finset.fold max (Ideal.ofBits .f32 0xFF800000#32) f (Finset.univ : Finset (Fin 512))) hf

/-- The second maximum, against −∞ broadcast to every (b, l), changes nothing. -/
private theorem maxAgain_apply (v : FVec Ideal S16x256 .f32) (i : S16x256.Idx) :
    maximumf (broadcastInDim S16x256 ![] bcast_S_S16x256 (constant (F := Ideal) S_ .f32 0xFF800000#32)) v i = v i := by
  show max (broadcastInDim S16x256 ![] bcast_S_S16x256 (constant (F := Ideal) S_ .f32 0xFF800000#32) i) (v i) = v i
  rw [broadcastInDim_apply _ bcast_S_S16x256 _ i ix0 (fun a => a.elim0)]
  exact max_negInf (v i)

/-- A per-row number broadcast over a unit last axis and then along the keys reads, at (b, l, k), the number of row (b, l). -/
private theorem bcastKeys_apply (v : FVec Ideal S16x256 .f32) (b : Fin 16) (l : Fin 256) (k : Fin 512) :
    broadcastInDim S16x256x512 ![0, 1, 2] bcast_S16x256x1_S16x256x512_0_1_2
      (broadcastInDim S16x256x1 ![0, 1] bcast_S16x256_S16x256x1_0_1 v) (ix3 b l k) = v (ix2 b l) := by
  rw [broadcastInDim_apply _ bcast_S16x256x1_S16x256x512_0_1_2 _ (ix3 b l k) (ix3 b l (0 : Fin 1)) (fun a => match a with
    | ⟨0, _⟩ => by show b.val = if (16 : Nat) = 1 then 0 else b.val; rw [if_neg (by decide)]
    | ⟨1, _⟩ => by show l.val = if (256 : Nat) = 1 then 0 else l.val; rw [if_neg (by decide)]
    | ⟨2, _⟩ => by show 0 = if (1 : Nat) = 1 then 0 else k.val; rw [if_pos rfl])]
  exact broadcastInDim_apply _ bcast_S16x256_S16x256x1_0_1 v (ix3 b l (0 : Fin 1)) (ix2 b l) (fun a => match a with
    | ⟨0, _⟩ => by show b.val = if (16 : Nat) = 1 then 0 else b.val; rw [if_neg (by decide)]
    | ⟨1, _⟩ => by show l.val = if (256 : Nat) = 1 then 0 else l.val; rw [if_neg (by decide)])

/-- The sum reduced along the keys from zero, at (b, l), is the sum over the keys of row (b, l). -/
private theorem rowSum_apply (e : FVec Ideal S16x256x512 .f32) (b : Fin 16) (l : Fin 256) :
    Host.reduceAdd e (constant (F := Ideal) S_ .f32 0x00000000#32) reducesTo_S16x256x512_S16x256_d2 h_S_ (ix2 b l)
      = ∑ k : Fin 512, e (ix3 b l k) := by
  simp only [Host.reduceAdd, Ideal.hostReduceAdd_def]
  rw [Ideal.hostReduceAdd_single reducesTo_S16x256x512_S16x256_d2 reduces_keys]
  show Ideal.ofBits .f32 0x00000000#32 + _ = _
  rw [Ideal.ofBits_zero_f32, zero_add]
  exact Finset.sum_congr rfl fun k _ => congrArg e (lift_ix3 reduces_keys b l k)

/-! ## The softmax of the logits, read at an entry -/

/-- The shifted exponentials as the reference computes them, of any array of logits: the maximum along the keys
    folded from −∞, taken once more against −∞, broadcast back along the keys and subtracted, then the exponential. -/
private def expv (s : FVec F S16x256x512 .f32) : FVec F S16x256x512 .f32 :=
  have mx : FVec F S16x256 .f32 := Host.reduce FloatOps.maximumf s (constant S_ .f32 0xFF800000#32) reducesTo_S16x256x512_S16x256_d2 h_S_
  have mx' : FVec F S16x256 .f32 := maximumf (broadcastInDim S16x256 ![] bcast_S_S16x256 (constant S_ .f32 0xFF800000#32)) mx
  have mxb : FVec F S16x256x512 .f32 := broadcastInDim S16x256x512 ![0, 1, 2] bcast_S16x256x1_S16x256x512_0_1_2
    (broadcastInDim S16x256x1 ![0, 1] bcast_S16x256_S16x256x1_0_1 mx')
  Host.exp (subf s mxb)

/-- At (b, l, k) it is the exponential of logit k of row (b, l) less that row's maximum. -/
private theorem expv_apply (s : FVec Ideal S16x256x512 .f32) (b : Fin 16) (l : Fin 256) (k : Fin 512) :
    expv (F := Ideal) s (ix3 b l k) = expShift (fun k => s (ix3 b l k)) k := by
  unfold expv expShift
  dsimp only
  show Ideal.exp (s (ix3 b l k) - _) = _
  rw [bcastKeys_apply, maxAgain_apply, rowMax_apply]

/-- The softmax along the keys as the reference computes it: the shifted exponentials over their sum along the
    keys, the sum broadcast back along the keys. -/
private def smax (s : FVec F S16x256x512 .f32) : FVec F S16x256x512 .f32 :=
  Host.divf (expv s) (broadcastInDim S16x256x512 ![0, 1, 2] bcast_S16x256x1_S16x256x512_0_1_2
    (broadcastInDim S16x256x1 ![0, 1] bcast_S16x256_S16x256x1_0_1
      (Host.reduceAdd (expv s) (constant S_ .f32 0x00000000#32) reducesTo_S16x256x512_S16x256_d2 h_S_)))

/-- At (b, l, k) it is the softmax weight of logit k of row (b, l). -/
private theorem smax_apply (s : FVec Ideal S16x256x512 .f32) (b : Fin 16) (l : Fin 256) (k : Fin 512) :
    smax (F := Ideal) s (ix3 b l k) = weight (fun k => s (ix3 b l k)) k := by
  unfold smax weight
  show Ideal.div (expv (F := Ideal) s (ix3 b l k)) _ = _
  rw [bcastKeys_apply, rowSum_apply, expv_apply]
  exact congrArg (Ideal.div _) (Finset.sum_congr rfl fun k' _ => expv_apply s b l k')

/-- One hop read at an entry: the softmax readout of batch item `b`'s query and key rows. -/
theorem hop_apply (cf : FVec Ideal S16x256x128 .f32) (kf : FVec Ideal S16x512x128 .f32) (b : Fin 16) (l : Fin 256) (d : Fin 128) :
    hop (F := Ideal) cf kf (ix3 b l d) = readout (fun l d => cf (ix3 b l d)) (fun k d => kf (ix3 b k d)) l d := by
  -- the hop is the second product of the softmax of the first product with the key rows
  show Host.dotGeneral (F := Ideal) dot_S16x256x512_S16x512x128_S16x256x128_2_1_1_2_0_0 none (smax (Host.dotGeneral dot_S16x256x128_S16x512x128_S16x256x512_2_2_1_1_0_0 none cf kf)) kf (ix3 b l d) = _
  rw [pv_apply]
  unfold readout
  refine Finset.sum_congr rfl fun k _ => ?_
  refine congrArg (· * kf (ix3 b k d)) ?_
  rw [smax_apply]
  -- the logits of row (b, l) are the scores of batch item b's rows
  exact congrArg (fun a => weight a k) (funext fun k' => qk_apply cf kf b l k')

end Cert.ReferenceIdeal.Hop

end
-- ==== Proof.RefBag.lean ====
/-
  The reference's embedding bags: `table[ids]` summed over the eight span tokens. A negative token is
  first moved up by the table's 50000 rows, the gather clamps the row into the table, and the sum over
  the span axis starts from zero. For tokens in [0, 50000) this is `Attention.bag` of the table's rows.
-/
import proofs.«426875_j21844203668322_3_alg».proof.ReferenceIdeal
import proofs.«426875_j21844203668322_3_alg».proof.Proof.Gen.ReferenceIdeal
import proofs.«426875_j21844203668322_3_alg».proof.Proof.Attention
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.Bag

open Idealize.ShloMosaic Idealize.ShloMosaic.ValueIdx Cert.ReferenceIdeal Cert.ReferenceIdeal.Gen Cert.Attention

variable {F : FTy → Type} [FloatOps F]

/-- The conversation side: rows of a [50000, 128] table named by [16, 256, 8] tokens, summed over the span. -/
def bagQ (tab : FVec F S50000x128 .f32) (ids : IVec S16x256x8 32) : FVec F S16x256x128 .f32 :=
  Host.reduceAdd
    (Host.gather gather_S50000x128_S16x256x8x1_S16x256x8x128_3_0_n_n_0_3_1128 tab
      (broadcastInDim S16x256x8x1 ![0, 1, 2] bcast_S16x256x8_S16x256x8x1_0_1_2
        (select (cmpi .slt ids (broadcastInDim S16x256x8 ![] bcast_S_S16x256x8 (constantI S_ 32 0#32)))
          (addi ids (broadcastInDim S16x256x8 ![] bcast_S_S16x256x8 (constantI S_ 32 50000#32))) ids)))
    (constant S_ .f32 0x00000000#32) reducesTo_S16x256x8x128_S16x256x128_d2 h_S_

/-- The knowledge-base side: the same over [16, 512, 8] tokens. -/
def bagK (tab : FVec F S50000x128 .f32) (ids : IVec S16x512x8 32) : FVec F S16x512x128 .f32 :=
  Host.reduceAdd
    (Host.gather gather_S50000x128_S16x512x8x1_S16x512x8x128_3_0_n_n_0_3_1128 tab
      (broadcastInDim S16x512x8x1 ![0, 1, 2] bcast_S16x512x8_S16x512x8x1_0_1_2
        (select (cmpi .slt ids (broadcastInDim S16x512x8 ![] bcast_S_S16x512x8 (constantI S_ 32 0#32)))
          (addi ids (broadcastInDim S16x512x8 ![] bcast_S_S16x512x8 (constantI S_ 32 50000#32))) ids)))
    (constant S_ .f32 0x00000000#32) reducesTo_S16x512x8x128_S16x512x128_d2 h_S_

/-- The row gather read at (b, l, m, d): the table at the row the start index `idx[b, l, m, 0]` names, read signed and
    clamped into the table's 50000 rows, and at column `d`. Axis 0 of the table is the one the start index addresses and
    is collapsed; axis 1 is kept whole and read at the result's last coordinate. -/
private theorem gatherQ_apply {α : Type} (x : S50000x128.Idx → α) (idx : IVec S16x256x8x1 32)
    (b : Fin 16) (l : Fin 256) (m : Fin 8) (d : Fin 128) :
    Host.gather gather_S50000x128_S16x256x8x1_S16x256x8x128_3_0_n_n_0_3_1128 x idx (ix4 b l m d)
      = x (ix2 ⟨min (idx (ix4 b l m (0 : Fin 1))).toInt.toNat 49999, by omega⟩ d) := by
  unfold Host.gather
  congr 1
  funext a
  refine Fin.ext ?_
  match a with
  | ⟨0, _⟩ =>
    show gather_S50000x128_S16x256x8x1_S16x256x8x128_3_0_n_n_0_3_1128.start (ix4 b l m d) idx 0
      + gather_S50000x128_S16x256x8x1_S16x256x8x128_3_0_n_n_0_3_1128.batchCoord (ix4 b l m d) 0
      + gather_S50000x128_S16x256x8x1_S16x256x8x128_3_0_n_n_0_3_1128.offCoord (ix4 b l m d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S16x256x8x1_S16x256x8x128_3_0_n_n_0_3_1128.startIndexMap from
      List.mem_singleton.mpr rfl)]
    have hsi : gather_S50000x128_S16x256x8x1_S16x256x8x128_3_0_n_n_0_3_1128.siIdx (ix4 b l m d)
        ⟨List.idxOf (0 : Fin 2) gather_S50000x128_S16x256x8x1_S16x256x8x128_3_0_n_n_0_3_1128.startIndexMap,
          List.idxOf_lt_length_iff.2 (List.mem_singleton.mpr rfl)⟩ = ix4 b l m (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S50000x128_S16x256x8x1_S16x256x8x128_3_0_n_n_0_3_1128.start (ix4 b l m d) idx 1
      + gather_S50000x128_S16x256x8x1_S16x256x8x128_3_0_n_n_0_3_1128.batchCoord (ix4 b l m d) 1
      + gather_S50000x128_S16x256x8x1_S16x256x8x128_3_0_n_n_0_3_1128.offCoord (ix4 b l m d) 1 = d.val
    rw [GatherDims.batchCoord_eq_zero _ _ _ List.not_mem_nil]
    unfold GatherDims.start
    rw [dif_neg (show ¬ (1 : Fin 2) ∈ gather_S50000x128_S16x256x8x1_S16x256x8x128_3_0_n_n_0_3_1128.startIndexMap by decide)]
    unfold GatherDims.offCoord
    rw [dif_pos (show (1 : Fin 2) ∈ gather_S50000x128_S16x256x8x1_S16x256x8x128_3_0_n_n_0_3_1128.sKept by decide)]
    rw [Nat.zero_add]
    exact congrArg (fun i => (ix4 b l m d i).val)
      (show gather_S50000x128_S16x256x8x1_S16x256x8x128_3_0_n_n_0_3_1128.offsetDims[List.idxOf (1 : Fin 2)
        gather_S50000x128_S16x256x8x1_S16x256x8x128_3_0_n_n_0_3_1128.sKept]'_ = (3 : Fin 4) by decide)

/-- The sum over the span axis read at (b, l, d): from zero, the eight entries (b, l, m, d). -/
private theorem sumQ_apply (y : FVec Ideal S16x256x8x128 .f32) (b : Fin 16) (l : Fin 256) (d : Fin 128) :
    Host.reduceAdd y (constant S_ .f32 0x00000000#32) reducesTo_S16x256x8x128_S16x256x128_d2 h_S_ (ix3 b l d)
      = ∑ m : Fin 8, y (ix4 b l m d) := by
  simp only [Host.reduceAdd, Ideal.hostReduceAdd_def]
  rw [Ideal.hostReduceAdd_single reducesTo_S16x256x8x128_S16x256x128_d2 (by decide)]
  show Ideal.ofBits .f32 0x00000000#32 + _ = _
  rw [Ideal.ofBits_zero_f32, zero_add]
  refine Finset.sum_congr rfl fun k _ => ?_
  exact congrArg y (funext fun a => Fin.ext (by
    match a with
    | ⟨0, _⟩ => rfl
    | ⟨1, _⟩ => rfl
    | ⟨2, _⟩ => rfl
    | ⟨3, _⟩ => rfl))

/-- A token below 50000 is not negative as a signed word, so the wrap-around leaves it as it is: the start index at
    (b, l, m, 0) is the token at (b, l, m). -/
private theorem idsQ_apply (ids : IVec S16x256x8 32) (hin : ∀ i, (ids i).toNat < 50000) (b : Fin 16) (l : Fin 256) (m : Fin 8) :
    broadcastInDim S16x256x8x1 ![0, 1, 2] bcast_S16x256x8_S16x256x8x1_0_1_2
        (select (cmpi .slt ids (broadcastInDim S16x256x8 ![] bcast_S_S16x256x8 (constantI S_ 32 0#32)))
          (addi ids (broadcastInDim S16x256x8 ![] bcast_S_S16x256x8 (constantI S_ 32 50000#32))) ids) (ix4 b l m (0 : Fin 1))
      = ids (ix3 b l m) := by
  rw [broadcastInDim_apply _ bcast_S16x256x8_S16x256x8x1_0_1_2 _ _ (ix3 b l m) (fun a => match a with
    | ⟨0, _⟩ => by show b.val = if (16 : Nat) = 1 then 0 else b.val; rw [if_neg (by decide)]
    | ⟨1, _⟩ => by show l.val = if (256 : Nat) = 1 then 0 else l.val; rw [if_neg (by decide)]
    | ⟨2, _⟩ => by show m.val = if (8 : Nat) = 1 then 0 else m.val; rw [if_neg (by decide)])]
  show Scalar.select (IntOp.cmpi .slt (ids (ix3 b l m))
    (broadcastInDim S16x256x8 ![] bcast_S_S16x256x8 (constantI S_ 32 0#32) (ix3 b l m))) _ _ = _
  rw [broadcastInDim_apply _ bcast_S_S16x256x8 (constantI S_ 32 0#32) (ix3 b l m) ix0 (fun a => a.elim0)]
  have hz : IntOp.cmpi .slt (ids (ix3 b l m)) (constantI S_ 32 0#32 ix0) = 0#1 := by
    refine eq_zero_of_ne_one fun h1 => ?_
    have hlt := (StableHlo.Predicate.slt_iff_toNat (a := ids (ix3 b l m)) (b := 0#32)
      (by have := hin (ix3 b l m); omega) (by decide)).mp h1
    exact Nat.not_lt_zero _ hlt
  rw [hz, select_zero]

/-- With every token below 50000, the conversation bag at (b, l, d) sums the table's rows the eight
    tokens of (b, l) name. -/
theorem bagQ_apply (tab : FVec Ideal S50000x128 .f32) (ids : IVec S16x256x8 32) (hin : ∀ i, (ids i).toNat < 50000)
    (b : Fin 16) (l : Fin 256) (d : Fin 128) :
    bagQ (F := Ideal) tab ids (ix3 b l d) = bag (fun r d => tab (ix2 r d)) (fun m => ids (ix3 b l m)) d := by
  unfold bagQ bag
  rw [sumQ_apply]
  refine Finset.sum_congr rfl fun m _ => ?_
  refine (gatherQ_apply _ _ b l m d).trans ?_
  refine congrArg tab (congrArg (fun r => ix2 r d) (Fin.ext ?_))
  show min (BitVec.toInt _).toNat 49999 = min (ids (ix3 b l m)).toNat 49999
  rw [idsQ_apply ids hin, StableHlo.Predicate.toInt_eq_toNat_of_lt (by have := hin (ix3 b l m); omega)]
  rfl

/-- The row gather of the knowledge-base side read at (b, k, m, d): the table at the row the start index
    `idx[b, k, m, 0]` names, read signed and clamped into the table's 50000 rows, and at column `d`. -/
private theorem gatherK_apply {α : Type} (x : S50000x128.Idx → α) (idx : IVec S16x512x8x1 32)
    (b : Fin 16) (k : Fin 512) (m : Fin 8) (d : Fin 128) :
    Host.gather gather_S50000x128_S16x512x8x1_S16x512x8x128_3_0_n_n_0_3_1128 x idx (ix4 b k m d)
      = x (ix2 ⟨min (idx (ix4 b k m (0 : Fin 1))).toInt.toNat 49999, by omega⟩ d) := by
  unfold Host.gather
  congr 1
  funext a
  refine Fin.ext ?_
  match a with
  | ⟨0, _⟩ =>
    show gather_S50000x128_S16x512x8x1_S16x512x8x128_3_0_n_n_0_3_1128.start (ix4 b k m d) idx 0
      + gather_S50000x128_S16x512x8x1_S16x512x8x128_3_0_n_n_0_3_1128.batchCoord (ix4 b k m d) 0
      + gather_S50000x128_S16x512x8x1_S16x512x8x128_3_0_n_n_0_3_1128.offCoord (ix4 b k m d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S16x512x8x1_S16x512x8x128_3_0_n_n_0_3_1128.startIndexMap from
      List.mem_singleton.mpr rfl)]
    have hsi : gather_S50000x128_S16x512x8x1_S16x512x8x128_3_0_n_n_0_3_1128.siIdx (ix4 b k m d)
        ⟨List.idxOf (0 : Fin 2) gather_S50000x128_S16x512x8x1_S16x512x8x128_3_0_n_n_0_3_1128.startIndexMap,
          List.idxOf_lt_length_iff.2 (List.mem_singleton.mpr rfl)⟩ = ix4 b k m (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S50000x128_S16x512x8x1_S16x512x8x128_3_0_n_n_0_3_1128.start (ix4 b k m d) idx 1
      + gather_S50000x128_S16x512x8x1_S16x512x8x128_3_0_n_n_0_3_1128.batchCoord (ix4 b k m d) 1
      + gather_S50000x128_S16x512x8x1_S16x512x8x128_3_0_n_n_0_3_1128.offCoord (ix4 b k m d) 1 = d.val
    rw [GatherDims.batchCoord_eq_zero _ _ _ List.not_mem_nil]
    unfold GatherDims.start
    rw [dif_neg (show ¬ (1 : Fin 2) ∈ gather_S50000x128_S16x512x8x1_S16x512x8x128_3_0_n_n_0_3_1128.startIndexMap by decide)]
    unfold GatherDims.offCoord
    rw [dif_pos (show (1 : Fin 2) ∈ gather_S50000x128_S16x512x8x1_S16x512x8x128_3_0_n_n_0_3_1128.sKept by decide)]
    rw [Nat.zero_add]
    exact congrArg (fun i => (ix4 b k m d i).val)
      (show gather_S50000x128_S16x512x8x1_S16x512x8x128_3_0_n_n_0_3_1128.offsetDims[List.idxOf (1 : Fin 2)
        gather_S50000x128_S16x512x8x1_S16x512x8x128_3_0_n_n_0_3_1128.sKept]'_ = (3 : Fin 4) by decide)

/-- The sum over the span axis read at (b, k, d): from zero, the eight entries (b, k, m, d). -/
private theorem sumK_apply (y : FVec Ideal S16x512x8x128 .f32) (b : Fin 16) (k : Fin 512) (d : Fin 128) :
    Host.reduceAdd y (constant S_ .f32 0x00000000#32) reducesTo_S16x512x8x128_S16x512x128_d2 h_S_ (ix3 b k d)
      = ∑ m : Fin 8, y (ix4 b k m d) := by
  simp only [Host.reduceAdd, Ideal.hostReduceAdd_def]
  rw [Ideal.hostReduceAdd_single reducesTo_S16x512x8x128_S16x512x128_d2 (by decide)]
  show Ideal.ofBits .f32 0x00000000#32 + _ = _
  rw [Ideal.ofBits_zero_f32, zero_add]
  refine Finset.sum_congr rfl fun m _ => ?_
  exact congrArg y (funext fun a => Fin.ext (by
    match a with
    | ⟨0, _⟩ => rfl
    | ⟨1, _⟩ => rfl
    | ⟨2, _⟩ => rfl
    | ⟨3, _⟩ => rfl))

/-- On the knowledge-base side too a token below 50000 is not negative as a signed word: the start index at
    (b, k, m, 0) is the token at (b, k, m). -/
private theorem idsK_apply (ids : IVec S16x512x8 32) (hin : ∀ i, (ids i).toNat < 50000) (b : Fin 16) (k : Fin 512) (m : Fin 8) :
    broadcastInDim S16x512x8x1 ![0, 1, 2] bcast_S16x512x8_S16x512x8x1_0_1_2
        (select (cmpi .slt ids (broadcastInDim S16x512x8 ![] bcast_S_S16x512x8 (constantI S_ 32 0#32)))
          (addi ids (broadcastInDim S16x512x8 ![] bcast_S_S16x512x8 (constantI S_ 32 50000#32))) ids) (ix4 b k m (0 : Fin 1))
      = ids (ix3 b k m) := by
  rw [broadcastInDim_apply _ bcast_S16x512x8_S16x512x8x1_0_1_2 _ _ (ix3 b k m) (fun a => match a with
    | ⟨0, _⟩ => by show b.val = if (16 : Nat) = 1 then 0 else b.val; rw [if_neg (by decide)]
    | ⟨1, _⟩ => by show k.val = if (512 : Nat) = 1 then 0 else k.val; rw [if_neg (by decide)]
    | ⟨2, _⟩ => by show m.val = if (8 : Nat) = 1 then 0 else m.val; rw [if_neg (by decide)])]
  show Scalar.select (IntOp.cmpi .slt (ids (ix3 b k m))
    (broadcastInDim S16x512x8 ![] bcast_S_S16x512x8 (constantI S_ 32 0#32) (ix3 b k m))) _ _ = _
  rw [broadcastInDim_apply _ bcast_S_S16x512x8 (constantI S_ 32 0#32) (ix3 b k m) ix0 (fun a => a.elim0)]
  have hz : IntOp.cmpi .slt (ids (ix3 b k m)) (constantI S_ 32 0#32 ix0) = 0#1 := by
    refine eq_zero_of_ne_one fun h1 => ?_
    have hlt := (StableHlo.Predicate.slt_iff_toNat (a := ids (ix3 b k m)) (b := 0#32)
      (by have := hin (ix3 b k m); omega) (by decide)).mp h1
    exact Nat.not_lt_zero _ hlt
  rw [hz, select_zero]

/-- The same for the knowledge-base bag at (b, k, d). -/
theorem bagK_apply (tab : FVec Ideal S50000x128 .f32) (ids : IVec S16x512x8 32) (hin : ∀ i, (ids i).toNat < 50000)
    (b : Fin 16) (k : Fin 512) (d : Fin 128) :
    bagK (F := Ideal) tab ids (ix3 b k d) = bag (fun r d => tab (ix2 r d)) (fun m => ids (ix3 b k m)) d := by
  unfold bagK bag
  rw [sumK_apply]
  refine Finset.sum_congr rfl fun m _ => ?_
  refine (gatherK_apply _ _ b k m d).trans ?_
  refine congrArg tab (congrArg (fun r => ix2 r d) (Fin.ext ?_))
  show min (BitVec.toInt _).toNat 49999 = min (ids (ix3 b k m)).toNat 49999
  rw [idsK_apply ids hin, StableHlo.Predicate.toInt_eq_toNat_of_lt (by have := hin (ix3 b k m); omega)]
  rfl

end Cert.ReferenceIdeal.Bag

end
-- ==== Proof.RefValue.lean ====
/-
  The reference's result is the specification: each hop's stage is the hop function of the two
  embedding bags of that hop's table slices (by unfolding the stages), the bags are `Attention.bag`
  for tokens in range, the hop function is `Attention.readout`, the three hops are added in front of
  the running sum from a zero array, and the final transpose swaps the batch and query-row axes.
-/
import proofs.«426875_j21844203668322_3_alg».proof.Proof.Gen.ReferenceIdeal.Run
import proofs.«426875_j21844203668322_3_alg».proof.Proof.Gen.ReferenceIdeal.Read
import proofs.«426875_j21844203668322_3_alg».proof.Proof.RefHop
import proofs.«426875_j21844203668322_3_alg».proof.Proof.RefBag
import proofs.«426875_j21844203668322_3_alg».proof.Proof.Attention
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen Cert.ReferenceIdeal.Read Cert.Attention

/-! ## Each hop's stage is the hop function of the two bags of that hop's table slices -/

private theorem hop0_eq (x0 : IVec S16x256x8 32) (x1 : IVec S16x512x8 32) (x2 x3 : FVec Ideal S3x50000x128 .f32) :
    val_main_v33 (F := Ideal) x0 x1 x2 x3 = Hop.hop (F := Ideal) (Bag.bagQ (val_main_v2 (F := Ideal) x2) x0) (Bag.bagK (val_main_v12 (F := Ideal) x3) x1) := rfl

private theorem hop1_eq (x0 : IVec S16x256x8 32) (x1 : IVec S16x512x8 32) (x2 x3 : FVec Ideal S3x50000x128 .f32) :
    val_main_v67 (F := Ideal) x0 x1 x2 x3 = Hop.hop (F := Ideal) (Bag.bagQ (val_main_v36 (F := Ideal) x2) x0) (Bag.bagK (val_main_v46 (F := Ideal) x3) x1) := rfl

private theorem hop2_eq (x0 : IVec S16x256x8 32) (x1 : IVec S16x512x8 32) (x2 x3 : FVec Ideal S3x50000x128 .f32) :
    val_main_v101 (F := Ideal) x0 x1 x2 x3 = Hop.hop (F := Ideal) (Bag.bagQ (val_main_v70 (F := Ideal) x2) x0) (Bag.bagK (val_main_v80 (F := Ideal) x3) x1) := rfl

/-! ## The table slices: slice h of a [3, 50000, 128] table, its unit leading axis cast away, at (r, d) is the table at (h, r, d) -/

/-- Hop 0's query table. -/
private theorem tabQ0 (x2 : FVec Ideal S3x50000x128 .f32) (r : Fin 50000) (d : Fin 128) :
    val_main_v2 (F := Ideal) x2 (ix2 r d) = x2 (ix3 (0 : Fin 3) r d) := by
  rw [val_main_v2_apply, val_main_v1_apply]
  refine congrArg x2 (funext fun a => Fin.ext ?_)
  match a with
  | ⟨0, _⟩ => rfl
  | ⟨1, _⟩ => show (r.val * 128 + d.val) / 128 % 50000 = r.val; omega
  | ⟨2, _⟩ => show (r.val * 128 + d.val) % 128 = d.val; omega

/-- Hop 0's key table. -/
private theorem tabK0 (x3 : FVec Ideal S3x50000x128 .f32) (r : Fin 50000) (d : Fin 128) :
    val_main_v12 (F := Ideal) x3 (ix2 r d) = x3 (ix3 (0 : Fin 3) r d) := by
  rw [val_main_v12_apply, val_main_v11_apply]
  refine congrArg x3 (funext fun a => Fin.ext ?_)
  match a with
  | ⟨0, _⟩ => rfl
  | ⟨1, _⟩ => show (r.val * 128 + d.val) / 128 % 50000 = r.val; omega
  | ⟨2, _⟩ => show (r.val * 128 + d.val) % 128 = d.val; omega

/-- Hop 1's query table. -/
private theorem tabQ1 (x2 : FVec Ideal S3x50000x128 .f32) (r : Fin 50000) (d : Fin 128) :
    val_main_v36 (F := Ideal) x2 (ix2 r d) = x2 (ix3 (1 : Fin 3) r d) := by
  rw [val_main_v36_apply, val_main_v35_apply]
  refine congrArg x2 (funext fun a => Fin.ext ?_)
  match a with
  | ⟨0, _⟩ => rfl
  | ⟨1, _⟩ => show (r.val * 128 + d.val) / 128 % 50000 = r.val; omega
  | ⟨2, _⟩ => show (r.val * 128 + d.val) % 128 = d.val; omega

/-- Hop 1's key table. -/
private theorem tabK1 (x3 : FVec Ideal S3x50000x128 .f32) (r : Fin 50000) (d : Fin 128) :
    val_main_v46 (F := Ideal) x3 (ix2 r d) = x3 (ix3 (1 : Fin 3) r d) := by
  rw [val_main_v46_apply, val_main_v45_apply]
  refine congrArg x3 (funext fun a => Fin.ext ?_)
  match a with
  | ⟨0, _⟩ => rfl
  | ⟨1, _⟩ => show (r.val * 128 + d.val) / 128 % 50000 = r.val; omega
  | ⟨2, _⟩ => show (r.val * 128 + d.val) % 128 = d.val; omega

/-- Hop 2's query table. -/
private theorem tabQ2 (x2 : FVec Ideal S3x50000x128 .f32) (r : Fin 50000) (d : Fin 128) :
    val_main_v70 (F := Ideal) x2 (ix2 r d) = x2 (ix3 (2 : Fin 3) r d) := by
  rw [val_main_v70_apply, val_main_v69_apply]
  refine congrArg x2 (funext fun a => Fin.ext ?_)
  match a with
  | ⟨0, _⟩ => rfl
  | ⟨1, _⟩ => show (r.val * 128 + d.val) / 128 % 50000 = r.val; omega
  | ⟨2, _⟩ => show (r.val * 128 + d.val) % 128 = d.val; omega

/-- Hop 2's key table. -/
private theorem tabK2 (x3 : FVec Ideal S3x50000x128 .f32) (r : Fin 50000) (d : Fin 128) :
    val_main_v80 (F := Ideal) x3 (ix2 r d) = x3 (ix3 (2 : Fin 3) r d) := by
  rw [val_main_v80_apply, val_main_v79_apply]
  refine congrArg x3 (funext fun a => Fin.ext ?_)
  match a with
  | ⟨0, _⟩ => rfl
  | ⟨1, _⟩ => show (r.val * 128 + d.val) / 128 % 50000 = r.val; omega
  | ⟨2, _⟩ => show (r.val * 128 + d.val) % 128 = d.val; omega

/-! ## One hop at an entry -/

/-- The hop function of the two bags, at (b, l, d), with the tables read as functions of row and feature: the softmax
    readout of batch item b's embedding bags. -/
private theorem hopStage_apply (tq tk : FVec Ideal S50000x128 .f32) (x0 : IVec S16x256x8 32) (x1 : IVec S16x512x8 32)
    (h0 : ∀ i, (x0 i).toNat < 50000) (h1 : ∀ i, (x1 i).toNat < 50000) (Tq Tk : Fin 50000 → Fin 128 → EReal)
    (hq : ∀ r d, tq (ix2 r d) = Tq r d) (hk : ∀ r d, tk (ix2 r d) = Tk r d) (b : Fin 16) (l : Fin 256) (d : Fin 128) :
    Hop.hop (F := Ideal) (Bag.bagQ tq x0) (Bag.bagK tk x1) (ix3 b l d)
      = readout (fun l d => bag Tq (fun m => x0 (ix3 b l m)) d) (fun k d => bag Tk (fun m => x1 (ix3 b k m)) d) l d := by
  rw [Hop.hop_apply]
  have eq : (fun (l : Fin 256) (d : Fin 128) => Bag.bagQ (F := Ideal) tq x0 (ix3 b l d))
      = fun l d => bag Tq (fun m => x0 (ix3 b l m)) d := by
    funext l d
    rw [Bag.bagQ_apply tq x0 h0]
    exact congrArg (fun T => bag T (fun m => x0 (ix3 b l m)) d) (funext fun r => funext fun d => hq r d)
  have ek : (fun (k : Fin 512) (d : Fin 128) => Bag.bagK (F := Ideal) tk x1 (ix3 b k d))
      = fun k d => bag Tk (fun m => x1 (ix3 b k m)) d := by
    funext k d
    rw [Bag.bagK_apply tk x1 h1]
    exact congrArg (fun T => bag T (fun m => x1 (ix3 b k m)) d) (funext fun r => funext fun d => hk r d)
  rw [eq, ek]

/-- With every token below 50000 the reference's last stage is the specification, entry by entry. -/
theorem result_eq (x0 : IVec S16x256x8 32) (x1 : IVec S16x512x8 32) (x2 x3 : FVec Ideal S3x50000x128 .f32)
    (h0 : ∀ i, (x0 i).toNat < 50000) (h1 : ∀ i, (x1 i).toNat < 50000) :
    val_main_v103 (F := Ideal) x0 x1 x2 x3 = G x0 x1 x2 x3 := by
  funext i
  obtain ⟨l, b, d, rfl⟩ : ∃ (l : Fin 256) (b : Fin 16) (d : Fin 128), i = ix3 l b d := ⟨i 0, i 1, i 2, eq_ix3 i⟩
  -- the transpose reads the running sum at (b, l, d)
  rw [val_main_v103_apply]
  have hi : idx_main_v103 (ix3 l b d) = ix3 b l d := funext fun a => Fin.ext (by
    match a with
    | ⟨0, _⟩ => rfl
    | ⟨1, _⟩ => rfl
    | ⟨2, _⟩ => rfl)
  rw [hi]
  -- the running sum: each hop added in front, from the zero array
  show val_main_v101 (F := Ideal) x0 x1 x2 x3 (ix3 b l d) + (val_main_v67 (F := Ideal) x0 x1 x2 x3 (ix3 b l d)
    + (val_main_v33 (F := Ideal) x0 x1 x2 x3 (ix3 b l d) + val_main_v0 (F := Ideal) (ix3 b l d))) = _
  have ez : val_main_v0 (F := Ideal) (ix3 b l d) = 0 := by
    rw [val_main_v0_apply]
    exact Ideal.ofBits_zero_f32
  have e0 := hopStage_apply _ _ x0 x1 h0 h1 _ _ (tabQ0 x2) (tabK0 x3) b l d
  have e1 := hopStage_apply _ _ x0 x1 h0 h1 _ _ (tabQ1 x2) (tabK1 x3) b l d
  have e2 := hopStage_apply _ _ x0 x1 h0 h1 _ _ (tabQ2 x2) (tabK2 x3) b l d
  rw [ez, hop0_eq, hop1_eq, hop2_eq, e0, e1, e2]
  exact total_eq _ _ _

end Cert.ReferenceIdeal.RefValue

end
-- ==== Proof.lean ====
/-
  The certificate: a multi-hop attention encoder (three hops; per hop an embedding bag of the
  conversation tokens attends over an embedding bag of the knowledge-base tokens by a softmax of inner
  products, and the three readouts are added) as a Pallas kernel with its host lines, against its jnp
  reference, over the extended reals, for finite tables and tokens in [0, 50000).

  Both programs end at one function of the four argument arrays, `Attention.G`:
    • the kernel program — its host lines gather all three hops' bags at once from the tables laid end
      to end, grid point `b` stages batch item `b`'s bags, the body computes the three softmax readouts
      with two matrix products each and adds them from zero, and a transpose follows (Proof/KernelValue);
    • the reference — per hop it gathers the bags from that hop's tables, computes the batched softmax
      readout, and adds it in front of the running sum; the same transpose follows (Proof/RefValue).
  The two gathers agree because a token below 50000, offset by 50000 times its hop, names in the long table
  the row the token names in that hop's own table; the two sums agree because addition of extended reals
  is commutative and associative. The precondition gives the token range (Proof/Tokens). Nothing was
  rewritten by the idealization, so `preserves` is trivial; the frames are the generated ones, the
  reference's its generated run with the result dropped.
-/
import proofs.«426875_j21844203668322_3_alg».proof.Defs
import proofs.«426875_j21844203668322_3_alg».proof.Proof.Gen.Kernel
import proofs.«426875_j21844203668322_3_alg».proof.Proof.Gen.Kernel.Skeleton
import proofs.«426875_j21844203668322_3_alg».proof.Proof.Gen.Kernel.Launch
import proofs.«426875_j21844203668322_3_alg».proof.Proof.Gen.Kernel.Points
import proofs.«426875_j21844203668322_3_alg».proof.Proof.Gen.Kernel.Frame
import proofs.«426875_j21844203668322_3_alg».proof.Proof.Gen.KernelIdeal
import proofs.«426875_j21844203668322_3_alg».proof.Proof.Gen.KernelIdeal.Skeleton
import proofs.«426875_j21844203668322_3_alg».proof.Proof.Gen.KernelIdeal.Launch
import proofs.«426875_j21844203668322_3_alg».proof.Proof.Gen.KernelIdeal.Points
import proofs.«426875_j21844203668322_3_alg».proof.Proof.Gen.KernelIdeal.Frame
import proofs.«426875_j21844203668322_3_alg».proof.Proof.Gen.ReferenceIdeal
import proofs.«426875_j21844203668322_3_alg».proof.Proof.Gen.Pre_finite_inputs
import proofs.«426875_j21844203668322_3_alg».proof.Proof.Gen.ReferenceIdeal.Run
import proofs.«426875_j21844203668322_3_alg».proof.Proof.Gen.ReferenceIdeal.Read
import proofs.«426875_j21844203668322_3_alg».proof.Proof.Attention
import proofs.«426875_j21844203668322_3_alg».proof.Proof.Tokens
import proofs.«426875_j21844203668322_3_alg».proof.Proof.KernelValue
import proofs.«426875_j21844203668322_3_alg».proof.Proof.RefValue
import Idealize.ShloMosaic.Adequacy
import Idealize.ShloMosaic.Init

noncomputable section

namespace Cert.Proof

open Idealize.ShloMosaic Idealize.SL.Sem

/-- The word-level kernel program runs and leaves its arguments: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and leaves its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both programs end at `Attention.G` of the
    argument arrays. -/
theorem algebraic : Cert.algebraic_KernelIdeal_ReferenceIdeal := by
  intro m ρ m' ρ' hpre hagree
  have hk := fun c => Cert.Tokens.in_range _ _ _ _ (hpre c)
  refine ⟨_, Cert.KernelIdeal.KValue.run m ρ (fun c => (hk c).1) (fun c => (hk c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, (hagree c).1, (hagree c).2.1, (hagree c).2.2.1, (hagree c).2.2.2]
  exact Cert.ReferenceIdeal.RefValue.result_eq _ _ _ _ (hk c).1 (hk c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
